-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096x4096 : Shape := ⟨2, ![4096, 4096]⟩
abbrev S3x16 : Shape := ⟨2, ![3, 16]⟩
abbrev S16 : Shape := ⟨1, ![16]⟩
abbrev S16x3 : Shape := ⟨2, ![16, 3]⟩
abbrev S3 : Shape := ⟨1, ![3]⟩
abbrev S3x3 : Shape := ⟨2, ![3, 3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_
  bcast_S_S3x3 : S_.BroadcastsInDim S3x3 (![] : Fin 0 → Fin S3x3.rank)
  reducesTo_S3x3_S_d0_1 : S3x3.ReducesTo [0, 1] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S16x3 .f32) (main_arg5 : FVec F S3 .f32) (main_arg6 : FVec F S3x3 .f32) (main_arg7 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x3 .f32 := Host.absf main_arg4
  let main_cst_6 : FVec F S_ .f32 := constant S_ .f32 0x7F800000#32
  let main_v20 : FVec F S16x3 .f32 := broadcastInDim S16x3 ![] bcast_S_S16x3 main_cst_6
  let main_v21 : IVec S16x3 1 := cmpf .olt main_v19 main_v20
  let main_c_7 : IVec S_ 1 := constantI S_ 1 1#1
  let main_v22 : IVec S_ 1 := (fun x v => Host.reduce IntOp.andi x v reducesTo_S16x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x3 .f32 := Host.absf main_arg6
  let main_cst_10 : FVec F S_ .f32 := constant S_ .f32 0x7F800000#32
  let main_v30 : FVec F S3x3 .f32 := broadcastInDim S3x3 ![] bcast_S_S3x3 main_cst_10
  let main_v31 : IVec S3x3 1 := cmpf .olt main_v29 main_v30
  let main_c_11 : IVec S_ 1 := constantI S_ 1 1#1
  let main_v32 : IVec S_ 1 := (fun x v => Host.reduce IntOp.andi x v reducesTo_S3x3_S_d0_1 h_S_) main_v31 main_c_11
  let main_v33 : IVec S_ 1 := andi main_v28 main_v32
  fn_part2 (F := F) main_arg7 main_v33

def fn {F : FTy → Type} [FloatOps F] (main_arg0 : FVec F S4096x3 .f32) (main_arg1 : FVec F S4096x4096 .f32) (main_arg2 : FVec F S3x16 .f32) (main_arg3 : FVec F S16 .f32) (main_arg4 : FVec F S16x3 .f32) (main_arg5 : FVec F S3 .f32) (main_arg6 : FVec F S3x3 .f32) (main_arg7 : FVec F S3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S3x16 .f32 := Host.absf main_arg2
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S4096x3 : Shape := ⟨2, ![4096, 3]⟩
abbrev S4096x4096 : Shape := ⟨2, ![4096, 4096]⟩
abbrev S3x16 : Shape := ⟨2, ![3, 16]⟩
abbrev S16 : Shape := ⟨1, ![16]⟩
abbrev S16x3 : Shape := ⟨2, ![16, 3]⟩
abbrev S3 : Shape := ⟨1, ![3]⟩
abbrev S3x3 : Shape := ⟨2, ![3, 3]⟩
abbrev S1x16 : Shape := ⟨2, ![1, 16]⟩
abbrev S1x3 : Shape := ⟨2, ![1, 3]⟩
abbrev S512x4096 : Shape := ⟨2, ![512, 4096]⟩
abbrev S4096x1 : Shape := ⟨2, ![4096, 1]⟩
abbrev S512x1 : Shape := ⟨2, ![512, 1]⟩
abbrev S4096x16 : Shape := ⟨2, ![4096, 16]⟩
abbrev S512x3 : Shape := ⟨2, ![512, 3]⟩

abbrev nBuf : Space → Nat
  | .hbm => 12
  | .vmem => 12
  | .smem => 0
  | _ => 0

abbrev bufTy : (tb : Table) → Fin (tcTables nBuf tb) → BufTy
  | .hbm, ⟨0, _⟩ => ⟨S4096x3, .f32⟩
  | .hbm, ⟨1, _⟩ => ⟨S4096x4096, .f32⟩
  | .hbm, ⟨2, _⟩ => ⟨S3x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S3x3, .f32⟩
  | .hbm, ⟨7, _⟩ => ⟨S3, .f32⟩
  | .hbm, ⟨8, _⟩ => ⟨S1x16, .f32⟩
  | .hbm, ⟨9, _⟩ => ⟨S1x3, .f32⟩
  | .hbm, ⟨10, _⟩ => ⟨S1x3, .f32⟩
  | .hbm, ⟨11, _⟩ => ⟨S4096x3, .f32⟩
  | .local _ .vmem, ⟨0, _⟩ => ⟨S4096x3, .f32⟩
  | .local _ .vmem, ⟨1, _⟩ => ⟨S512x4096, .f32⟩
  | .local _ .vmem, ⟨2, _⟩ => ⟨S512x4096, .f32⟩
  | .local _ .vmem, ⟨3, _⟩ => ⟨S3x16, .f32⟩
  | .local _ .vmem, ⟨4, _⟩ => ⟨S1x16, .f32⟩
  | .local _ .vmem, ⟨5, _⟩ => ⟨S16x3, .f32⟩
  | .local _ .vmem, ⟨6, _⟩ => ⟨S1x3, .f32⟩
  | .local _ .vmem, ⟨7, _⟩ => ⟨S3x3, .f32⟩
  | .local _ .vmem, ⟨8, _⟩ => ⟨S1x3, .f32⟩
  | .local _ .vmem, ⟨9, _⟩ => ⟨S4096x3, .f32⟩
  | .local _ .vmem, ⟨10, _⟩ => ⟨S4096x1, .f32⟩
  | .local _ .vmem, ⟨11, _⟩ => ⟨S4096x3, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![16], ![false]⟩

def k0_cond4 (i : grid0.Coords) : BitVec 1 :=
  let arg0 : BitVec 32 := BitVec.ofNat 32 (i 0).val
  let c8_i32_6 : BitVec 32 := 8#32
  let v20 : BitVec 1 := Scalar.cmpi .sge arg0 c8_i32_6
  let v21 : BitVec 32 := Scalar.extui v20
  let c0_i32_7 : BitVec 32 := 0#32
  let v22 : BitVec 1 := Scalar.cmpi .ne v21 c0_i32_7
  v22

def k0_off1 (i : grid0.Coords) : Fin 2 → Nat :=
  let arg0 : BitVec 32 := BitVec.ofNat 32 (i 0).val
  let c8_i32 : BitVec 32 := 8#32
  let v0 : BitVec 32 := Scalar.remsi arg0 c8_i32
  let c512_i32_9 : BitVec 32 := 512#32
  let v26 : BitVec 32 := Scalar.muli v0 c512_i32_9
  let v27 : Index := Scalar.indexCast v26
  let c0_10 : Index := 0#32
  ![v27.toNat, 0]
def k0_cond3 (i : grid0.Coords) : BitVec 1 :=
  let arg0 : BitVec 32 := BitVec.ofNat 32 (i 0).val
  let c8_i32_4 : BitVec 32 := 8#32
  let v17 : BitVec 1 := Scalar.cmpi .eq arg0 c8_i32_4
  let v18 : BitVec 32 := Scalar.extui v17
  let c0_i32_5 : BitVec 32 := 0#32
  let v19 : BitVec 1 := Scalar.cmpi .ne v18 c0_i32_5
  v19

def k0_cond5 (i : grid0.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S16_S1x16 : S16.ShapeCasts S1x16
  shapeCasts_S3_S1x3 : S3.ShapeCasts S1x3
  inb_S512x4096_S512x4096_0_0 : ∀ a, (![0, 0] : Fin 2 → Nat) a + S512x4096.size a ≤ S512x4096.size a
  h_S512x4096 : 0 < S512x4096.numel
  iota_S512x4096_d0_w32 : S512x4096.Iotas .tc 32 [0]
  iota_S512x4096_d1_w32 : S512x4096.Iotas .tc 32 [1]
  natLt_1_32 : 1 < 32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x3_S4096x3_0_0 : ∀ a, (![0, 0] : Fin 2 → Nat) a + S4096x3.size a ≤ S4096x3.size a
  h_S4096x3 : 0 < S4096x3.numel
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x3_S16x3_0_0 : ∀ a, (![0, 0] : Fin 2 → Nat) a + S16x3.size a ≤ S16x3.size a
  h_S16x3 : 0 < S16x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  inb_S3x3_S3x3_0_0 : ∀ a, (![0, 0] : Fin 2 → Nat) a + S3x3.size a ≤ S3x3.size a
  h_S3x3 : 0 < S3x3.numel
  broadcasts_S4096x1_S4096x3 : S4096x1.Broadcasts S4096x3
  shapeCasts_S4096x3_S4096x3 : S4096x3.ShapeCasts S4096x3
  h_S512x3 : 0 < S512x3.numel
  dot_S512x4096_S512x1_S4096x1_0_0_1_1_n_n_wf : DotDims.WF S512x4096 S512x1 S4096x1 [0] [0] [1] [1] [] []
  dot_S4096x3_S3x16_S4096x16_1_0_0_1_n_n_wf : DotDims.WF S4096x3 S3x16 S4096x16 [1] [0] [0] [1] [] []
  dot_S4096x16_S16x3_S4096x3_1_0_0_1_n_n_wf : DotDims.WF S4096x16 S16x3 S4096x3 [1] [0] [0] [1] [] []
  dot_S4096x3_S3x3_S4096x3_1_0_0_1_n_n_wf : DotDims.WF S4096x3 S3x3 S4096x3 [1] [0] [0] [1] [] []
  dot_S512x4096_S512x3_S4096x3_0_0_1_1_n_n_wf : DotDims.WF S512x4096 S512x3 S4096x3 [0] [0] [1] [1] [] []
  hrank0 : 0 < grid0.rank
  k0_off1_inb : ∀ i : grid0.Coords, ∀ (k0_h4 : k0_cond4 i = 1#1), ∀ a, (k0_off1 i) a + S512x3.size a ≤ S4096x3.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S4096x3.size a
  hwx0_0 : ∀ i : grid0.Coords, EltTy.bits .f32 = 32 ∨ (Rect.block (s := S4096x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x16.size a ≤ S3x16.size a
  hwx0_2 : ∀ i : grid0.Coords, EltTy.bits .f32 = 32 ∨ (Rect.block (s := S3x16) S3x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x3.size a ≤ S16x3.size a
  hwx0_4 : ∀ i : grid0.Coords, EltTy.bits .f32 = 32 ∨ (Rect.block (s := S16x3) S16x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x3.size a ≤ S3x3.size a
  hwx0_6 : ∀ i : grid0.Coords, EltTy.bits .f32 = 32 ∨ (Rect.block (s := S3x3) S3x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x3.size a ≤ S4096x3.size a
  hwx0_8 : ∀ i : grid0.Coords, EltTy.bits .f32 = 32 ∨ (Rect.block (s := S4096x3) S4096x3.size (cc0_transform_8 i) (hinb0_8 i)).WholeWords (EltTy.packing .f32)

variable [Facts₀]

def dot_S512x4096_S512x1_S4096x1_0_0_1_1_n_n : DotDims S512x4096 S512x1 S4096x1 where
  lhsContracting := [0]
  rhsContracting := [0]
  lhsNonContracting := [1]
  rhsNonContracting := [1]
  lhsBatch := []
  rhsBatch := []
  wf := dot_S512x4096_S512x1_S4096x1_0_0_1_1_n_n_wf
def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def dot_S4096x16_S16x3_S4096x3_1_0_0_1_n_n : DotDims S4096x16 S16x3 S4096x3 where
  lhsContracting := [1]
  rhsContracting := [0]
  lhsNonContracting := [0]
  rhsNonContracting := [1]
  lhsBatch := []
  rhsBatch := []
  wf := dot_S4096x16_S16x3_S4096x3_1_0_0_1_n_n_wf
def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S512x4096_S512x3_S4096x3_0_0_1_1_n_n : DotDims S512x4096 S512x3 S4096x3 where
  lhsContracting := [0]
  rhsContracting := [0]
  lhsNonContracting := [1]
  rhsNonContracting := [1]
  lhsBatch := []
  rhsBatch := []
  wf := dot_S512x4096_S512x3_S4096x3_0_0_1_1_n_n_wf

abbrev win0_0 : Pipeline.Window sig grid0 :=
  Pipeline.Window.ofSpec (Memref.whole main_arg0) S4096x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S4096x3.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) && !(k0_cond4 i == 1#1) && !(k0_cond5 i == 1#1) | ⟨_ + 9, h⟩ => absurd h (Nat.not_lt.2 (Nat.le_add_left _ _))

class Facts : Prop extends Facts₀ where

variable [Facts]
-- ==== ReferenceIdeal.lean ====
abbrev S4096x3 : Shape := ⟨2, ![4096, 3]⟩
abbrev S4096x4096 : Shape := ⟨2, ![4096, 4096]⟩
abbrev S3x16 : Shape := ⟨2, ![3, 16]⟩
abbrev S16 : Shape := ⟨1, ![16]⟩
abbrev S16x3 : Shape := ⟨2, ![16, 3]⟩
abbrev S3 : Shape := ⟨1, ![3]⟩
abbrev S3x3 : Shape := ⟨2, ![3, 3]⟩
abbrev S4096x16 : Shape := ⟨2, ![4096, 16]⟩
abbrev S1x16 : Shape := ⟨2, ![1, 16]⟩
abbrev S_ : Shape := ⟨0, ![]⟩
abbrev S1x3 : Shape := ⟨2, ![1, 3]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x4096, .f32⟩
  | .hbm, ⟨2, _⟩ => ⟨S3x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S3x3, .f32⟩
  | .hbm, ⟨7, _⟩ => ⟨S3, .f32⟩
  | .hbm, ⟨8, _⟩ => ⟨S4096x16, .f32⟩
  | .hbm, ⟨9, _⟩ => ⟨S1x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096x16, .f32⟩
  | .hbm, ⟨14, _⟩ => ⟨S4096x16, .f32⟩
  | .hbm, ⟨15, _⟩ => ⟨S4096x3, .f32⟩
  | .hbm, ⟨16, _⟩ => ⟨S1x3, .f32⟩
  | .hbm, ⟨17, _⟩ => ⟨S4096x3, .f32⟩
  | .hbm, ⟨18, _⟩ => ⟨S4096x3, .f32⟩
  | .hbm, ⟨19, _⟩ => ⟨S_, .f32⟩
  | .hbm, ⟨20, _⟩ => ⟨S4096x3, .f32⟩
  | .hbm, ⟨21, _⟩ => ⟨S4096x3, .f32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .i1⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x3, .f32⟩
  | .hbm, ⟨41, _⟩ => ⟨S4096x1, .f32⟩
  | .hbm, ⟨42, _⟩ => ⟨S4096x4096, .f32⟩
  | .hbm, ⟨43, _⟩ => ⟨S4096x1, .f32⟩
  | .hbm, ⟨44, _⟩ => ⟨S4096x3, .f32⟩
  | .hbm, ⟨45, _⟩ => ⟨S4096x3, .f32⟩
  | .hbm, ⟨46, _⟩ => ⟨S4096x3, .f32⟩
  | .hbm, ⟨47, _⟩ => ⟨S4096x3, .f32⟩
  | .hbm, ⟨48, _⟩ => ⟨S4096x3, .f32⟩
  | .hbm, ⟨49, _⟩ => ⟨S1x3, .f32⟩
  | .hbm, ⟨50, _⟩ => ⟨S4096x3, .f32⟩
  | .hbm, ⟨51, _⟩ => ⟨S4096x3, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_call2_v0 : Ref sig .tc := ⟨.hbm, 37, rfl⟩
abbrev main_call2_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S4096x3 : S_.BroadcastsInDim S4096x3 (![] : Fin 0 → Fin S4096x3.rank)
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bcast_S4096x1_S4096x3_0_1 : S4096x1.BroadcastsInDim S4096x3 (![0, 1] : Fin 2 → Fin S4096x3.rank)
  dot_S4096x3_S3x16_S4096x16_1_0_0_1_n_n_wf : DotDims.WF S4096x3 S3x16 S4096x16 [1] [0] [0] [1] [] []
  dot_S4096x16_S16x3_S4096x3_1_0_0_1_n_n_wf : DotDims.WF S4096x16 S16x3 S4096x3 [1] [0] [0] [1] [] []
  dot_S4096x3_S3x3_S4096x3_1_0_0_1_n_n_wf : DotDims.WF S4096x3 S3x3 S4096x3 [1] [0] [0] [1] [] []
  dot_S4096x4096_S4096x3_S4096x3_1_0_0_1_n_n_wf : DotDims.WF S4096x4096 S4096x3 S4096x3 [1] [0] [0] [1] [] []

variable [Facts₀]

def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def dot_S4096x16_S16x3_S4096x3_1_0_0_1_n_n : DotDims S4096x16 S16x3 S4096x3 where
  lhsContracting := [1]
  rhsContracting := [0]
  lhsNonContracting := [0]
  rhsNonContracting := [1]
  lhsBatch := []
  rhsBatch := []
  wf := dot_S4096x16_S16x3_S4096x3_1_0_0_1_n_n_wf
def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S4096x4096_S4096x3_S4096x3_1_0_0_1_n_n : DotDims S4096x4096 S4096x3 S4096x3 where
  lhsContracting := [1]
  rhsContracting := [0]
  lhsNonContracting := [0]
  rhsNonContracting := [1]
  lhsBatch := []
  rhsBatch := []
  wf := dot_S4096x4096_S4096x3_S4096x3_1_0_0_1_n_n_wf

class Facts : Prop extends Facts₀ where

variable [Facts]
-- ==== Proof.Bits.Step.lean ====
/-
  The kernel body as ONE pure function of what it finds.

  A grid point hands the body eight input blocks and three buffers it keeps between points: the output block
  (4096 x 3), the degree column (4096 x 1) and the message block (4096 x 3).  The body is five guarded
  sections, each guard a comparison of the grid coordinate with a literal:
    * coordinate = 0      : the degree column is zeroed;
    * coordinate < 8      : the column sums of this row block of max(adj, I) are added to the degree column;
    * coordinate = 8      : the degree column becomes d^(-1/2) (0 where the degree is not positive), the
                            message block becomes d^(-1/2) * (relu(relu(x W1 + b1) W3 + b3) Wg), and the output
                            block is zeroed;
    * coordinate >= 8     : the product of the transposed row block of max(adj, I) with the matching 512 rows
                            of the message block is added to the output block;
    * coordinate = 15     : the output block becomes d^(-1/2) * output + bg.
  `step` composes the five sections in program order over the payload functions the printed body is written
  with; nothing here depends on memory, on the pipeline or on the float instance.
-/
import proofs.«131665_g88562225643609_cont_sun_c4_799_2_alg».proof.Proof.Gen.Kernel.Skeleton
import Idealize.ShloMosaic.Lib.Pipeline.FrameBody

noncomputable section

namespace Cert.Kernel.Hand

open Idealize.ShloMosaic Idealize.SL.Sem
open Cert.Kernel Cert.Kernel.Gen

variable {F : FTy → Type} [FloatOps F]

/-- The five guards, as the body computes them from the grid coordinate. -/
abbrev cond0_0 (i : grid0.Coords) : Prop :=
  (Scalar.cmpi .ne (Scalar.extui (Scalar.cmpi .eq (BitVec.ofNat 32 (i 0).val) 0#32)) 0#32) = 1#1
abbrev cond0_1 (i : grid0.Coords) : Prop :=
  (Scalar.cmpi .ne (Scalar.extui (Scalar.cmpi .slt (BitVec.ofNat 32 (i 0).val) 8#32)) 0#32) = 1#1
abbrev cond0_2 (i : grid0.Coords) : Prop := k0_cond3 i = 1#1
abbrev cond0_3 (i : grid0.Coords) : Prop := k0_cond4 i = 1#1
abbrev cond0_4 (i : grid0.Coords) : Prop := k0_cond5 i = 1#1

/-- What the body keeps from one grid point to the next. -/
structure St (F : FTy → Type) where
  /-- the output block -/
  out : Vec F S4096x3 .f32
  /-- the degree column, from coordinate 8 on its inverse square root -/
  s0 : Vec F S4096x1 .f32
  /-- the message block -/
  s1 : Vec F S4096x3 .f32

/-- The 512 rows of the message block that belong to the row block the point streams. -/
def vrows (i : grid0.Coords) (h : cond0_3 i) (s1 : Vec F S4096x3 .f32) : Vec F S512x3 .f32 :=
  View.ld s1 (Rect.unit (s := S4096x3) (k0_off1 i) S512x3.size (Facts₀.k0_off1_inb i h))

/-- One grid point: the five guarded sections in program order. -/
def step (i : grid0.Coords) (x0 : Vec F S4096x3 .f32) (x1 : Vec F S512x4096 .f32) (x2 : Vec F S3x16 .f32)
    (x3 : Vec F S1x16 .f32) (x4 : Vec F S16x3 .f32) (x5 : Vec F S1x3 .f32) (x6 : Vec F S3x3 .f32)
    (x7 : Vec F S1x3 .f32) (s : St F) : St F :=
  let d0 : Vec F S4096x1 .f32 := if cond0_0 i then k0_pay2 (F := F) else s.s0
  let d1 : Vec F S4096x1 .f32 := if cond0_1 i then k0_pay3 i x1 d0 else d0
  let d2 : Vec F S4096x1 .f32 := if cond0_2 i then k0_pay8 d1 else d1
  let v2 : Vec F S4096x3 .f32 := if cond0_2 i then k0_pay9 d1 x0 x2 x3 x4 x5 x6 else s.s1
  let o2 : Vec F S4096x3 .f32 := if cond0_2 i then k0_pay4 (F := F) else s.out
  let o3 : Vec F S4096x3 .f32 := if h : cond0_3 i then k0_pay5 i x1 (vrows i h v2) o2 else o2
  let o4 : Vec F S4096x3 .f32 := if cond0_4 i then k0_pay6 d2 o3 x7 else o3
  ⟨o4, d2, v2⟩

/-- The grid coordinate of the `n`-th point (the grid has one axis of 16 points, walked in order). -/
def pt (n : ℕ) : grid0.Coords := fun a => match a with
  | ⟨0, _⟩ => ⟨n % 16, Nat.mod_lt _ (by decide)⟩

/-- The state after the points 0 … n, from small inputs that do not change over the grid, the row block of the
    adjacency each point streams (`blk`), and whatever the three buffers held before the first point (`d`). -/
def foldSt (x0 : Vec F S4096x3 .f32) (x2 : Vec F S3x16 .f32) (x3 : Vec F S1x16 .f32) (x4 : Vec F S16x3 .f32)
    (x5 : Vec F S1x3 .f32) (x6 : Vec F S3x3 .f32) (x7 : Vec F S1x3 .f32) (blk : ℕ → Vec F S512x4096 .f32) (d : St F) :
    ℕ → St F
  | 0 => step (pt 0) x0 (blk 0) x2 x3 x4 x5 x6 x7 d
  | n + 1 => step (pt (n + 1)) x0 (blk (n + 1)) x2 x3 x4 x5 x6 x7 (foldSt x0 x2 x3 x4 x5 x6 x7 blk d n)

/-- The row of the adjacency that row `k` of the block streamed at coordinate `i` is. -/
def rowOf (i : grid0.Coords) (k : Fin 512) : Fin 4096 :=
  ⟨512 * ((i 0).val % 8) + k.val, by have := k.isLt; have : (i 0).val % 8 < 8 := Nat.mod_lt _ (by decide); omega⟩

end Cert.Kernel.Hand

end
-- ==== Proof.Bits.Conds.lean ====
/-
  The schedule of the kernel: which of the body's five guards holds at which of the 16 grid points (decided over
  the grid), the staging buffer each window is on at a point, the two scratch buffers as whole memrefs, and the
  region's default invariant spelt over them.
-/
import proofs.«131665_g88562225643609_cont_sun_c4_799_2_alg».proof.Proof.Bits.Step
import proofs.«131665_g88562225643609_cont_sun_c4_799_2_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Guard 0 holds at the first point only. -/
theorem hcond0_0 : ∀ t : Fin cfg0.N, cond0_0 (grid0.coords t) ↔ t.val = 0 :=
  (by decide +kernel : ∀ t : Fin grid0.N, cond0_0 (grid0.coords t) ↔ t.val = 0)
/-- Guard 1 holds at the points before point 8. -/
theorem hcond0_1 : ∀ t : Fin cfg0.N, cond0_1 (grid0.coords t) ↔ t.val < 8 :=
  (by decide +kernel : ∀ t : Fin grid0.N, cond0_1 (grid0.coords t) ↔ t.val < 8)
/-- Guard 2 holds at point 8 only. -/
theorem hcond0_2 : ∀ t : Fin cfg0.N, cond0_2 (grid0.coords t) ↔ t.val = 8 :=
  (by decide +kernel : ∀ t : Fin grid0.N, cond0_2 (grid0.coords t) ↔ t.val = 8)
/-- Guard 3 holds from point 8 on. -/
theorem hcond0_3 : ∀ t : Fin cfg0.N, cond0_3 (grid0.coords t) ↔ 8 ≤ t.val :=
  (by decide +kernel : ∀ t : Fin grid0.N, cond0_3 (grid0.coords t) ↔ 8 ≤ t.val)
/-- Guard 4 holds at the last point only. -/
theorem hcond0_4 : ∀ t : Fin cfg0.N, cond0_4 (grid0.coords t) ↔ t.val = 15 :=
  (by decide +kernel : ∀ t : Fin grid0.N, cond0_4 (grid0.coords t) ↔ t.val = 15)

/-- The input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- The output window is idle exactly at the points before point 8: the body stores nothing into it there. -/
theorem idleAt0_8 : ∀ t : Fin cfg0.N, cfg0.idle 8 (grid0.coords t) = decide (t.val < 8) :=
  (by decide +kernel : ∀ t : Fin grid0.N, cfg0.idle 8 (grid0.coords t) = decide (t.val < 8))

/-- Each window's current staging memref at point `t`, as the pipeline passes it to the body, and its wholeness. -/
abbrev ms0_0 (t : Fin cfg0.N) : Memref sig .tc .vmem S4096x3 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S512x4096 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S3x16 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S1x16 .f32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S16x3 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S1x3 .f32 := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Memref sig .tc .vmem S3x3 .f32 := win0_6.stage (cfg0.slots t 6)
abbrev hs0_6 (t : Fin cfg0.N) : (ms0_6 t).IsWhole := Facts₀.hstage0_6 ((cfg0.slots t 6).cast Facts₀.nbuf0_6)
abbrev ms0_7 (t : Fin cfg0.N) : Memref sig .tc .vmem S1x3 .f32 := win0_7.stage (cfg0.slots t 7)
abbrev hs0_7 (t : Fin cfg0.N) : (ms0_7 t).IsWhole := Facts₀.hstage0_7 ((cfg0.slots t 7).cast Facts₀.nbuf0_7)
abbrev ms0_8 (t : Fin cfg0.N) : Memref sig .tc .vmem S4096x3 .f32 := win0_8.stage (cfg0.slots t 8)
abbrev hs0_8 (t : Fin cfg0.N) : (ms0_8 t).IsWhole := Facts₀.hstage0_8 ((cfg0.slots t 8).cast Facts₀.nbuf0_8)
/-- The two scratch operands: whole scoped buffers of the kernel's own. -/
abbrev scM0_0 : Memref sig .tc .vmem S4096x1 .f32 := Memref.whole cc0_scratch0
abbrev scM0_1 : Memref sig .tc .vmem S4096x3 .f32 := Memref.whole cc0_scratch1

/-- The region's default invariant over the two scratch memrefs, each owned at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Bits.RunA.lean ====
/-
  The body at a grid point of case A, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Bits.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runA (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : cond0_0 i) (hc1 : cond0_1 i) (hc2 : ¬cond0_2 i) (hc3 : ¬cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ (∃ f, arg10.view.loc (c : Thread nD τ) ↦[arg10.view.set]{fullShare} arg10.view.writes (Elt F) f LS0) ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; isplitr; · ipureintro; exact harg11.read_unread _
    iexact HS1

end Cert.Kernel.Hand

end
-- ==== Proof.Bits.RunB.lean ====
/-
  The body at a grid point of case B, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Bits.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runB (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : cond0_1 i) (hc2 : ¬cond0_2 i) (hc3 : ¬cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ (∃ f, arg10.view.loc (c : Thread nD τ) ↦[arg10.view.set]{fullShare} arg10.view.writes (Elt F) f LS0) ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; isplitr; · ipureintro; exact harg11.read_unread _
    iexact HS1

end Cert.Kernel.Hand

end
-- ==== Proof.Bits.RunC.lean ====
/-
  The body at a grid point of case C, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Bits.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : ¬cond0_1 i) (hc2 : cond0_2 i) (hc3 : cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    (LO : List (View.Piece (Elt F) S4096x3 .f32)) ×' (LS0 : List (View.Piece (Elt F) S4096x1 .f32)) ×' { LS1 : List (View.Piece (Elt F) S4096x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel.Hand

end
-- ==== Proof.Bits.RunD.lean ====
/-
  The body at a grid point of case D, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Bits.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runD (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : ¬cond0_1 i) (hc2 : ¬cond0_2 i) (hc3 : cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LO : List (View.Piece (Elt F) S4096x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg10 fullShare xs0 ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; isplitr; · ipureintro; exact harg11.read_unread _
    iexact HS1

end Cert.Kernel.Hand

end
-- ==== Proof.Bits.RunE.lean ====
/-
  The body at a grid point of case E, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Bits.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runE (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : ¬cond0_1 i) (hc2 : ¬cond0_2 i) (hc3 : cond0_3 i) (hc4 : cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LO : List (View.Piece (Elt F) S4096x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg10 fullShare xs0 ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; isplitr; · ipureintro; exact harg11.read_unread _
    iexact HS1

end Cert.Kernel.Hand

end
-- ==== Proof.Bits.Pieces.lean ====
/-
  What each case's run leaves in the three kept buffers is what the pure step function says.

  Every store of the body covers its whole buffer, so the contents a buffer ends with are the payload of the last
  store into it, and every load through a whole buffer reads the buffer's contents; the one partial load — 512 rows
  of the message block — reads those rows.
-/
import proofs.«131665_g88562225643609_cont_sun_c4_799_2_alg».proof.Proof.Bits.RunA
import proofs.«131665_g88562225643609_cont_sun_c4_799_2_alg».proof.Proof.Bits.RunB
import proofs.«131665_g88562225643609_cont_sun_c4_799_2_alg».proof.Proof.Bits.RunC
import proofs.«131665_g88562225643609_cont_sun_c4_799_2_alg».proof.Proof.Bits.RunD
import proofs.«131665_g88562225643609_cont_sun_c4_799_2_alg».proof.Proof.Bits.RunE
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

section
variable (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32)

/-! ## The stores cover -/
theorem coverA_10 (hc0 : cond0_0 i) (hc1 : cond0_1 i) (hc2 : ¬cond0_2 i) (hc3 : ¬cond0_3 i) (hc4 : ¬cond0_4 i) (y : S4096x1.Idx) :
    ∃ pc ∈ (runA c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x1.size (by sl_kernel_rfl) y

theorem coverB_10 (hc0 : ¬cond0_0 i) (hc1 : cond0_1 i) (hc2 : ¬cond0_2 i) (hc3 : ¬cond0_3 i) (hc4 : ¬cond0_4 i) (y : S4096x1.Idx) :
    ∃ pc ∈ (runB c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x1.size (by sl_kernel_rfl) y

theorem coverC_9 (hc0 : ¬cond0_0 i) (hc1 : ¬cond0_1 i) (hc2 : cond0_2 i) (hc3 : cond0_3 i) (hc4 : ¬cond0_4 i) (y : S4096x3.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x3.size (by sl_kernel_rfl) y

theorem coverC_10 (hc0 : ¬cond0_0 i) (hc1 : ¬cond0_1 i) (hc2 : cond0_2 i) (hc3 : cond0_3 i) (hc4 : ¬cond0_4 i) (y : S4096x1.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.1 S4096x1.size (by sl_kernel_rfl) y

theorem coverC_11 (hc0 : ¬cond0_0 i) (hc1 : ¬cond0_1 i) (hc2 : cond0_2 i) (hc3 : cond0_3 i) (hc4 : ¬cond0_4 i) (y : S4096x3.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.2.1 S4096x3.size (by sl_kernel_rfl) y

theorem coverD_9 (hc0 : ¬cond0_0 i) (hc1 : ¬cond0_1 i) (hc2 : ¬cond0_2 i) (hc3 : cond0_3 i) (hc4 : ¬cond0_4 i) (y : S4096x3.Idx) :
    ∃ pc ∈ (runD c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runD c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x3.size (by sl_kernel_rfl) y

theorem coverE_9 (hc0 : ¬cond0_0 i) (hc1 : ¬cond0_1 i) (hc2 : ¬cond0_2 i) (hc3 : cond0_3 i) (hc4 : cond0_4 i) (y : S4096x3.Idx) :
    ∃ pc ∈ (runE c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runE c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x3.size (by sl_kernel_rfl) y

/-! ## The contents left -/

/-- Case A: the degree column is zeroed and takes the first block's column sums. -/
theorem valA_s0 (hc0 : cond0_0 i) (hc1 : cond0_1 i) (hc2 : ¬cond0_2 i) (hc3 : ¬cond0_3 i) (hc4 : ¬cond0_4 i) (f) (s : St F) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).s0 := by
  rw [View.read_writes_eq_canon _ _ _ (coverA_10 c i arg1 harg1 arg2 harg2 arg3 harg3 arg4 harg4 arg5 harg5 arg6 harg6 arg7 harg7 arg8 harg8 arg9 harg9 arg10 harg10 arg11 harg11 x0 x1 x2 x3 x4 x5 x6 x7 xo xs0 xs1 hc0 hc1 hc2 hc3 hc4)]
  unfold runA; dsimp only; sl_unfold_run_names
  rw [View.canon_cons_unit_zero (S := S4096x1) hz2, View.readCov_unit_zero (S := S4096x1) _ hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_pos hc0, if_pos hc1, if_neg hc2, dif_neg hc3, if_neg hc4]

/-- Case B: the degree column takes one more block's column sums. -/
theorem valB_s0 (hc0 : ¬cond0_0 i) (hc1 : cond0_1 i) (hc2 : ¬cond0_2 i) (hc3 : ¬cond0_3 i) (hc4 : ¬cond0_4 i) (f) (s : St F) (hs0 : s.s0 = xs0) :
    arg10.view.read (Elt F) (arg10.view.writes (Elt F) f (runB c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).s0 := by
  subst hs0
  rw [View.read_writes_eq_canon _ _ _ (coverB_10 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runB; dsimp only; sl_unfold_run_names
  rw [View.canon_unit_zero (S := S4096x1) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_neg hc0, if_pos hc1, if_neg hc2, dif_neg hc3, if_neg hc4]

/-- Case C: the normalisation column. -/
theorem valC_s0 (hc0 : ¬cond0_0 i) (hc1 : ¬cond0_1 i) (hc2 : cond0_2 i) (hc3 : cond0_3 i) (hc4 : ¬cond0_4 i) (f) (s : St F) (hs0 : s.s0 = xs0) :
    arg10.view.read (Elt F) (arg10.view.writes (Elt F) f (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.1) = (step i x0 x1 x2 x3 x4 x5 x6 x7 s).s0 := by
  subst hs0
  rw [View.read_writes_eq_canon _ _ _ (coverC_10 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runC; dsimp only; sl_unfold_run_names
  rw [View.canon_unit_zero (S := S4096x1) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_neg hc0, if_neg hc1, if_pos hc2, dif_pos hc3, if_neg hc4]

/-- Case C: the message block. -/
theorem valC_s1 (hc0 : ¬cond0_0 i) (hc1 : ¬cond0_1 i) (hc2 : cond0_2 i) (hc3 : cond0_3 i) (hc4 : ¬cond0_4 i) (f) (s : St F) (hs0 : s.s0 = xs0) :
    arg11.view.read (Elt F) (arg11.view.writes (Elt F) f (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.2.1) = (step i x0 x1 x2 x3 x4 x5 x6 x7 s).s1 := by
  subst hs0
  rw [View.read_writes_eq_canon _ _ _ (coverC_11 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runC; dsimp only; sl_unfold_run_names
  rw [View.canon_unit_zero (S := S4096x3) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_neg hc0, if_neg hc1, if_pos hc2, dif_pos hc3, if_neg hc4]

/-- Case C: the output block, zeroed, takes the first block's product. -/
theorem valC_out (hc0 : ¬cond0_0 i) (hc1 : ¬cond0_1 i) (hc2 : cond0_2 i) (hc3 : cond0_3 i) (hc4 : ¬cond0_4 i) (f) (s : St F) (hs0 : s.s0 = xs0) :
    arg9.view.read (Elt F) (arg9.view.writes (Elt F) f (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).out := by
  subst hs0
  rw [View.read_writes_eq_canon _ _ _ (coverC_9 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runC; dsimp only; sl_unfold_run_names
  rw [View.canon_cons_unit_zero (S := S4096x3) hz2, View.readCov_unit_zero (S := S4096x3) _ hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  rw [View.read_writes_junk_eq_canon, View.canon_unit_zero (S := S4096x3) hz2]
  simp only [step, vrows, if_neg hc0, if_neg hc1, if_pos hc2, dif_pos hc3, if_neg hc4]

/-- Cases D and E keep the normalisation column and the message block. -/
theorem stepDE_s0 (hc0 : ¬cond0_0 i) (hc1 : ¬cond0_1 i) (hc2 : ¬cond0_2 i) (s : St F) : (step i x0 x1 x2 x3 x4 x5 x6 x7 s).s0 = s.s0 := by
  simp only [step, if_neg hc0, if_neg hc1, if_neg hc2]
theorem stepDE_s1 (hc2 : ¬cond0_2 i) (s : St F) : (step i x0 x1 x2 x3 x4 x5 x6 x7 s).s1 = s.s1 := by
  simp only [step, if_neg hc2]

/-- Case D: the output block takes one more block's product. -/
theorem valD_out (hc0 : ¬cond0_0 i) (hc1 : ¬cond0_1 i) (hc2 : ¬cond0_2 i) (hc3 : cond0_3 i) (hc4 : ¬cond0_4 i) (f) (s : St F) (hso : s.out = xo) (hs1 : s.s1 = xs1) :
    arg9.view.read (Elt F) (arg9.view.writes (Elt F) f (runD c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).out := by
  subst hso; subst hs1
  rw [View.read_writes_eq_canon _ _ _ (coverD_9 c i arg1 harg1 arg2 harg2 arg3 harg3 arg4 harg4 arg5 harg5 arg6 harg6 arg7 harg7 arg8 harg8 arg9 harg9 arg10 harg10 arg11 harg11 x0 x1 x2 x3 x4 x5 x6 x7 s.out xs0 s.s1 hc0 hc1 hc2 hc3 hc4)]
  unfold runD; dsimp only; sl_unfold_run_names
  rw [View.canon_unit_zero (S := S4096x3) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, vrows, if_neg hc0, if_neg hc1, if_neg hc2, dif_pos hc3, if_neg hc4]

/-- Case E: the last block's product, then the scaling and the bias. -/
theorem valE_out (hc0 : ¬cond0_0 i) (hc1 : ¬cond0_1 i) (hc2 : ¬cond0_2 i) (hc3 : cond0_3 i) (hc4 : cond0_4 i) (f) (s : St F) (hso : s.out = xo) (hs0 : s.s0 = xs0) (hs1 : s.s1 = xs1) :
    arg9.view.read (Elt F) (arg9.view.writes (Elt F) f (runE c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).out := by
  subst hso; subst hs0; subst hs1
  rw [View.read_writes_eq_canon _ _ _ (coverE_9 c i arg1 harg1 arg2 harg2 arg3 harg3 arg4 harg4 arg5 harg5 arg6 harg6 arg7 harg7 arg8 harg8 arg9 harg9 arg10 harg10 arg11 harg11 x0 x1 x2 x3 x4 x5 x6 x7 s.out s.s0 s.s1 hc0 hc1 hc2 hc3 hc4)]
  unfold runE; dsimp only; sl_unfold_run_names
  rw [View.canon_cons_unit_zero (S := S4096x3) hz2, View.readCov_unit_zero (S := S4096x3) _ hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, vrows, if_neg hc0, if_neg hc1, if_neg hc2, dif_pos hc3, if_pos hc4]

end

end Cert.Kernel.Hand

end
-- ==== Proof.Bits.Data.lean ====
/-
  The region's proof data with every kept buffer NAMED, and the body's obligation at every grid point.

  After point n the three kept buffers hold the pure state `stAt n`: one `step` from what point n - 1 left (from
  arbitrary contents at point 0), at the point's coordinate and input blocks.  The output window's staging buffer
  is idle before point 8 (the body stores nothing into it there) and holds `(stAt n).out` from point 8 on; the
  degree column holds `(stAt n).s0` after every point; the message block is written whole at point 8 and holds
  `(stAt n).s1` from then on (before that, whatever it held).  The body obligation is a case split on the point:
  each case's run applies, and what it leaves is the step's component by the lemmas on the stores.
-/
import proofs.«131665_g88562225643609_cont_sun_c4_799_2_alg».proof.Proof.Bits.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nobody names: what the three buffers hold before the first point. -/
def junkSt : St F := ⟨fun _ => Classical.choice (Elt.nonempty F .f32), fun _ => Classical.choice (Elt.nonempty F .f32), fun _ => Classical.choice (Elt.nonempty F .f32)⟩

/-- The three kept buffers after point `n`. -/
def stAt (c : Dev nD) : (n : ℕ) → n < cfg0.N → St F
  | 0, hn => step (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) junkSt
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (stAt c n (Nat.lt_of_succ_lt hn))

/-- What point `t` finds: what the point before left, or arbitrary contents at the first point. -/
def prevSt (c : Dev nD) (t : Fin cfg0.N) : St F :=
  if h : t.val = 0 then junkSt else stAt m c (t.val - 1) (Nat.lt_of_le_of_lt (Nat.sub_le _ _) t.isLt)

theorem stAt_eq (c : Dev nD) (t : Fin cfg0.N) :
    stAt m c t.val t.isLt = step (grid0.coords t) (iblk m c 0 t) (iblk m c 1 t) (iblk m c 2 t) (iblk m c 3 t) (iblk m c 4 t) (iblk m c 5 t) (iblk m c 6 t) (iblk m c 7 t) (prevSt m c t) := by
  obtain ⟨n, hn⟩ := t
  unfold prevSt
  cases n with
  | zero => rw [dif_pos rfl]; rfl
  | succ n => rw [dif_neg (Nat.succ_ne_zero n)]; rfl

theorem prevSt_pos (c : Dev nD) (t : Fin cfg0.N) (ht : t.val ≠ 0) :
    prevSt m c t = stAt m c (t.val - 1) (Nat.lt_of_le_of_lt (Nat.sub_le _ _) t.isLt) := by
  unfold prevSt; rw [dif_neg ht]

/-- The message block in the invariant after point `n`: named from point 8 on. -/
def S1At (c : Dev nD) (n : ℕ) (hn : n < cfg0.N) : sProp 𝕄 :=
  if n < 8 then iprop(∃ d, owns (c : Thread nD τ) scM0_1 fullShare d)
  else owns (c : Thread nD τ) scM0_1 fullShare (stAt m c n hn).s1

/-- The region invariant before position `n`: before the first point the default one (both scratch buffers at
    anything); afterwards the degree column at what the point before left, the message block as `S1At` says, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (stAt m c n hn).s0 ∗ S1At m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAt m c n hn).s0 ∗ S1At m c n hn) ∗ (∃ r, prngReg c r)) := rfl

theorem PhiS_pos (c : Dev nD) (n : ℕ) (h : n ≤ cfg0.N) (hz : n ≠ 0) :
    PhiS m c n h = iprop(iprop(owns (c : Thread nD τ) scM0_0 fullShare (stAt m c (n - 1) (by omega)).s0 ∗ S1At m c (n - 1) (by omega)) ∗ (∃ r, prngReg c r)) := by
  cases n with
  | zero => exact absurd rfl hz
  | succ n => rfl

/-! ## The pipeline's proof data -/

/-- The arrays as the region finds them; after the body at point `t` each input's buffer at its block and the
    output's at the state's output block; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The output window is written back at the last point only. -/
theorem flush8_false (t : Fin cfg0.N) (ht : t.val ≠ 15) : (cfg0.win 8).flush t = false := by
  have hN : t.val < 16 := lt_of_lt_of_eq t.isLt (show cfg0.N = 16 from N_0)
  exact Bool.eq_false_iff.mpr fun h => ht (by have := (flush0_8 t).mp h; omega)

theorem idle8_true (t : Fin cfg0.N) (ht : t.val < 8) : cfg0.idle 8 (cfg0.grid.coords t) = true := by
  rw [show cfg0.idle 8 (cfg0.grid.coords t) = decide (t.val < 8) from idleAt0_8 t]; exact decide_eq_true ht
theorem idle8_false (t : Fin cfg0.N) (ht : 8 ≤ t.val) : cfg0.idle 8 (cfg0.grid.coords t) = false := by
  rw [show cfg0.idle 8 (cfg0.grid.coords t) = decide (t.val < 8) from idleAt0_8 t]; exact decide_eq_false (by omega)

/-- After point 8 the output's staging buffer holds what the point before left: no write-back in between, and the
    point before was live for the window. -/
theorem before0_8_pos (c : Dev nD) (t : Fin cfg0.N) (ht : 8 < t.val) (d) :
    (dats m 0 c).before 8 t d = (stAt m c (t.val - 1) (Nat.lt_of_le_of_lt (Nat.sub_le _ _) t.isLt)).out := by
  have hN : t.val < 16 := lt_of_lt_of_eq t.isLt (show cfg0.N = 16 from N_0)
  rw [(dats m 0 c).before_of_pos 8 t (by omega) ((cfg0.win 8).fetch_out rfl t),
    flush8_false ⟨t.val - 1, Nat.lt_of_le_of_lt (Nat.sub_le _ _) t.isLt⟩ (by show t.val - 1 ≠ 15; omega), if_neg Bool.false_ne_true]
  unfold Dat.left
  rw [idle8_false ⟨t.val - 1, Nat.lt_of_le_of_lt (Nat.sub_le _ _) t.isLt⟩ (by show 8 ≤ t.val - 1; omega)]
  dsimp only
  unfold Dat.kept
  rw [Pipeline.fill_of_clip_none 8 _ (fun _ => rfl) d ((dats m 0 c).after 8 _), Window.fill_cut, after0_8]

theorem leaves8_idle (c : Dev nD) (t : Fin cfg0.N) (ht : t.val < 8) :
    (dats m 0 c).leavesExact 8 t = iprop(∃ d, owns (c : Thread nD τ) (ms0_8 t) fullShare ((dats m 0 c).before 8 t d)) :=
  (dats m 0 c).leavesExact_idle 8 t (idle8_true t ht) (flush8_false t (by omega))

theorem leaves8_live (c : Dev nD) (t : Fin cfg0.N) (ht : 8 ≤ t.val) :
    (dats m 0 c).leavesExact 8 t = owns (c : Thread nD τ) (ms0_8 t) fullShare (stAt m c t.val t.isLt).out := by
  unfold Dat.leavesExact; rw [idle8_false t ht]; dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The first point: both scratch buffers and the output's buffer hold anything; the degree column is zeroed and
    takes the first block's column sums. -/
theorem sound_A (c : Dev nD) (t : Fin cfg0.N) (h0 : t.val = 0) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_idle m c t (by omega)]
  rw [PhiS_castSucc m c t, PhiS_zero m c _ _ h0, PhiA0_eq]
  rw [show S1At m c t.val t.isLt = iprop(∃ d, owns (c : Thread nD τ) scM0_1 fullShare d) from if_pos (by omega)]
  rw [stAt_eq m c t]
  iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr (by omega)) (fun h => by have := (hcond0_2 t).mp h; omega) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) ((dats m 0 c).before 8 t d8) ds0 ds1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, HS1⟩
  isplitl [HS0 HS1 Hg]
  · isplitl [HS0 HS1]
    · isplitl [HS0]
      · unfold owns; iexists _; isplitr
        swap; · iexact HS0
        ipureintro; exact valA_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) ds0 ds1 ((hcond0_0 t).mpr h0) ((hcond0_1 t).mpr (by omega)) (fun h => by have := (hcond0_2 t).mp h; omega) (fun h => by have := (hcond0_3 t).mp h; omega) (fun h => by have := (hcond0_4 t).mp h; omega) es0 (prevSt m c t)
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4000000 in
/-- Points 1 to 7: the degree column takes one more block's column sums. -/
theorem sound_B (c : Dev nD) (t : Fin cfg0.N) (h0 : t.val ≠ 0) (h8 : t.val < 8) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_idle m c t h8]
  rw [PhiS_castSucc m c t, PhiS_pos m c _ _ h0]
  rw [show S1At m c t.val t.isLt = iprop(∃ d, owns (c : Thread nD τ) scM0_1 fullShare d) from if_pos h8]
  rw [show S1At m c (t.val - 1) (by omega) = iprop(∃ d, owns (c : Thread nD τ) scM0_1 fullShare d) from if_pos (by omega)]
  rw [stAt_eq m c t]
  iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) ((hcond0_1 t).mpr (by omega)) (fun h => by have := (hcond0_2 t).mp h; omega) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, HS1⟩
  isplitl [HS0 HS1 Hg]
  · isplitl [HS0 HS1]
    · isplitl [HS0]
      · unfold owns; iexists _; isplitr
        swap; · iexact HS0
        ipureintro; exact valB_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) ((hcond0_1 t).mpr (by omega)) (fun h => by have := (hcond0_2 t).mp h; omega) (fun h => by have := (hcond0_3 t).mp h; omega) (fun h => by have := (hcond0_4 t).mp h; omega) es0 (prevSt m c t) (by rw [prevSt_pos m c t h0])
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4000000 in
/-- Point 8: the degree column becomes the normalisation, the message block is formed, the output block is zeroed
    and takes the first block's product. -/
theorem sound_C (c : Dev nD) (t : Fin cfg0.N) (h8 : t.val = 8) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_live m c t (by omega)]
  rw [PhiS_castSucc m c t, PhiS_pos m c _ _ (by omega)]
  rw [show S1At m c t.val t.isLt = owns (c : Thread nD τ) scM0_1 fullShare (stAt m c t.val t.isLt).s1 from if_neg (by omega)]
  rw [show S1At m c (t.val - 1) (by omega) = iprop(∃ d, owns (c : Thread nD τ) scM0_1 fullShare d) from if_pos (by omega)]
  rw [stAt_eq m c t]
  iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) (fun h => by have := (hcond0_1 t).mp h; omega) ((hcond0_2 t).mpr (by omega)) ((hcond0_3 t).mpr (by omega)) (fun h => by have := (hcond0_4 t).mp h; omega) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%eo, H8⟩, ⟨%es0, HS0⟩, ⟨%es1, HS1⟩⟩
  isplitl [HS0 HS1 Hg]
  · isplitl [HS0 HS1]
    · isplitl [HS0]
      · unfold owns; iexists _; isplitr
        swap; · iexact HS0
        ipureintro; exact valC_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) (fun h => by have := (hcond0_1 t).mp h; omega) ((hcond0_2 t).mpr (by omega)) ((hcond0_3 t).mpr (by omega)) (fun h => by have := (hcond0_4 t).mp h; omega) es0 (prevSt m c t) (by rw [prevSt_pos m c t (by omega)])
      unfold owns; iexists _; isplitr
      swap; · iexact HS1
      ipureintro; exact valC_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) (fun h => by have := (hcond0_1 t).mp h; omega) ((hcond0_2 t).mpr (by omega)) ((hcond0_3 t).mpr (by omega)) (fun h => by have := (hcond0_4 t).mp h; omega) es1 (prevSt m c t) (by rw [prevSt_pos m c t (by omega)])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact valC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) (fun h => by have := (hcond0_1 t).mp h; omega) ((hcond0_2 t).mpr (by omega)) ((hcond0_3 t).mpr (by omega)) (fun h => by have := (hcond0_4 t).mp h; omega) eo (prevSt m c t) (by rw [prevSt_pos m c t (by omega)])

set_option maxHeartbeats 4000000 in
/-- Points 9 to 14: the output block takes one more block's product. -/
theorem sound_D (c : Dev nD) (t : Fin cfg0.N) (h9 : 8 < t.val) (h15 : t.val < 15) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_live m c t (by omega)]
  simp only [before0_8_pos m c t (by omega)]
  rw [PhiS_castSucc m c t, PhiS_pos m c _ _ (by omega)]
  rw [show S1At m c t.val t.isLt = owns (c : Thread nD τ) scM0_1 fullShare (stAt m c t.val t.isLt).s1 from if_neg (by omega)]
  rw [show S1At m c (t.val - 1) (by omega) = owns (c : Thread nD τ) scM0_1 fullShare (stAt m c (t.val - 1) (Nat.lt_of_le_of_lt (Nat.sub_le _ _) t.isLt)).s1 from if_neg (by omega)]
  rw [stAt_eq m c t]
  rw [stepDE_s0 (grid0.coords t) (iblk m c 0 t) (iblk m c 1 t) (iblk m c 2 t) (iblk m c 3 t) (iblk m c 4 t) (iblk m c 5 t) (iblk m c 6 t) (iblk m c 7 t) (fun h => by have := (hcond0_0 t).mp h; omega) (fun h => by have := (hcond0_1 t).mp h; omega) (fun h => by have := (hcond0_2 t).mp h; omega) (prevSt m c t),
    stepDE_s1 (grid0.coords t) (iblk m c 0 t) (iblk m c 1 t) (iblk m c 2 t) (iblk m c 3 t) (iblk m c 4 t) (iblk m c 5 t) (iblk m c 6 t) (iblk m c 7 t) (fun h => by have := (hcond0_2 t).mp h; omega) (prevSt m c t), prevSt_pos m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) (fun h => by have := (hcond0_1 t).mp h; omega) (fun h => by have := (hcond0_2 t).mp h; omega) ((hcond0_3 t).mpr (by omega)) (fun h => by have := (hcond0_4 t).mp h; omega) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%eo, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact valD_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1 (fun h => by have := (hcond0_0 t).mp h; omega) (fun h => by have := (hcond0_1 t).mp h; omega) (fun h => by have := (hcond0_2 t).mp h; omega) ((hcond0_3 t).mpr (by omega)) (fun h => by have := (hcond0_4 t).mp h; omega) eo (stAt m c (t.val - 1) (Nat.lt_of_le_of_lt (Nat.sub_le _ _) t.isLt)) rfl rfl

set_option maxHeartbeats 4000000 in
/-- The last point: the last block's product, then the scaling and the bias. -/
theorem sound_E (c : Dev nD) (t : Fin cfg0.N) (h15 : t.val = 15) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_live m c t (by omega)]
  simp only [before0_8_pos m c t (by omega)]
  rw [PhiS_castSucc m c t, PhiS_pos m c _ _ (by omega)]
  rw [show S1At m c t.val t.isLt = owns (c : Thread nD τ) scM0_1 fullShare (stAt m c t.val t.isLt).s1 from if_neg (by omega)]
  rw [show S1At m c (t.val - 1) (by omega) = owns (c : Thread nD τ) scM0_1 fullShare (stAt m c (t.val - 1) (Nat.lt_of_le_of_lt (Nat.sub_le _ _) t.isLt)).s1 from if_neg (by omega)]
  rw [stAt_eq m c t]
  rw [stepDE_s0 (grid0.coords t) (iblk m c 0 t) (iblk m c 1 t) (iblk m c 2 t) (iblk m c 3 t) (iblk m c 4 t) (iblk m c 5 t) (iblk m c 6 t) (iblk m c 7 t) (fun h => by have := (hcond0_0 t).mp h; omega) (fun h => by have := (hcond0_1 t).mp h; omega) (fun h => by have := (hcond0_2 t).mp h; omega) (prevSt m c t),
    stepDE_s1 (grid0.coords t) (iblk m c 0 t) (iblk m c 1 t) (iblk m c 2 t) (iblk m c 3 t) (iblk m c 4 t) (iblk m c 5 t) (iblk m c 6 t) (iblk m c 7 t) (fun h => by have := (hcond0_2 t).mp h; omega) (prevSt m c t), prevSt_pos m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) (fun h => by have := (hcond0_1 t).mp h; omega) (fun h => by have := (hcond0_2 t).mp h; omega) ((hcond0_3 t).mpr (by omega)) ((hcond0_4 t).mpr (by omega)) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%eo, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact valE_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1 (fun h => by have := (hcond0_0 t).mp h; omega) (fun h => by have := (hcond0_1 t).mp h; omega) (fun h => by have := (hcond0_2 t).mp h; omega) ((hcond0_3 t).mpr (by omega)) ((hcond0_4 t).mpr (by omega)) eo (stAt m c (t.val - 1) (Nat.lt_of_le_of_lt (Nat.sub_le _ _) t.isLt)) rfl rfl rfl

/-- The body at any point. -/
theorem sound_body (c : Dev nD) (t : Fin cfg0.N) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val = 0
  · exact sound_A m c t h0
  by_cases h1 : t.val < 8
  · exact sound_B m c t h0 h1
  by_cases h2 : t.val = 8
  · exact sound_C m c t h2
  by_cases h3 : t.val = 15
  · exact sound_E m c t h3
  · exact sound_D m c t (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the default one back: the scratch buffers' named contents are forgotten. -/
theorem hout (c : Dev nD) : (dats m 0 c).Φ (Fin.last cfg0.N) ⊢ Pipeline.ΦA spec0 c := by
  have hN : cfg0.N = 16 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  rw [show S1At m c ((Fin.last cfg0.N).val - 1) (by rw [Fin.val_last]; omega) = owns (c : Thread nD τ) scM0_1 fullShare (stAt m c ((Fin.last cfg0.N).val - 1) (by rw [Fin.val_last]; omega)).s1 from if_neg (by rw [Fin.val_last]; omega)]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has each array of the pipeline at what
    the proof data computes — an input at its entry contents, the output at the block the last point wrote back —
    and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.Step.lean ====
/-
  The kernel body as ONE pure function of what it finds.

  A grid point hands the body eight input blocks and three buffers it keeps between points: the output block
  (4096 x 3), the degree column (4096 x 1) and the message block (4096 x 3).  The body is five guarded
  sections, each guard a comparison of the grid coordinate with a literal:
    * coordinate = 0      : the degree column is zeroed;
    * coordinate < 8      : the column sums of this row block of max(adj, I) are added to the degree column;
    * coordinate = 8      : the degree column becomes d^(-1/2) (0 where the degree is not positive), the
                            message block becomes d^(-1/2) * (relu(relu(x W1 + b1) W3 + b3) Wg), and the output
                            block is zeroed;
    * coordinate >= 8     : the product of the transposed row block of max(adj, I) with the matching 512 rows
                            of the message block is added to the output block;
    * coordinate = 15     : the output block becomes d^(-1/2) * output + bg.
  `step` composes the five sections in program order over the payload functions the printed body is written
  with; nothing here depends on memory, on the pipeline or on the float instance.
-/
import proofs.«131665_g88562225643609_cont_sun_c4_799_2_alg».proof.Proof.Gen.KernelIdeal.Skeleton
import Idealize.ShloMosaic.Lib.Pipeline.FrameBody

noncomputable section

namespace Cert.KernelIdeal.Hand

open Idealize.ShloMosaic Idealize.SL.Sem
open Cert.KernelIdeal Cert.KernelIdeal.Gen

variable {F : FTy → Type} [FloatOps F]

/-- The five guards, as the body computes them from the grid coordinate. -/
abbrev cond0_0 (i : grid0.Coords) : Prop :=
  (Scalar.cmpi .ne (Scalar.extui (Scalar.cmpi .eq (BitVec.ofNat 32 (i 0).val) 0#32)) 0#32) = 1#1
abbrev cond0_1 (i : grid0.Coords) : Prop :=
  (Scalar.cmpi .ne (Scalar.extui (Scalar.cmpi .slt (BitVec.ofNat 32 (i 0).val) 8#32)) 0#32) = 1#1
abbrev cond0_2 (i : grid0.Coords) : Prop := k0_cond3 i = 1#1
abbrev cond0_3 (i : grid0.Coords) : Prop := k0_cond4 i = 1#1
abbrev cond0_4 (i : grid0.Coords) : Prop := k0_cond5 i = 1#1

/-- What the body keeps from one grid point to the next. -/
structure St (F : FTy → Type) where
  /-- the output block -/
  out : Vec F S4096x3 .f32
  /-- the degree column, from coordinate 8 on its inverse square root -/
  s0 : Vec F S4096x1 .f32
  /-- the message block -/
  s1 : Vec F S4096x3 .f32

/-- The 512 rows of the message block that belong to the row block the point streams. -/
def vrows (i : grid0.Coords) (h : cond0_3 i) (s1 : Vec F S4096x3 .f32) : Vec F S512x3 .f32 :=
  View.ld s1 (Rect.unit (s := S4096x3) (k0_off1 i) S512x3.size (Facts₀.k0_off1_inb i h))

/-- One grid point: the five guarded sections in program order. -/
def step (i : grid0.Coords) (x0 : Vec F S4096x3 .f32) (x1 : Vec F S512x4096 .f32) (x2 : Vec F S3x16 .f32)
    (x3 : Vec F S1x16 .f32) (x4 : Vec F S16x3 .f32) (x5 : Vec F S1x3 .f32) (x6 : Vec F S3x3 .f32)
    (x7 : Vec F S1x3 .f32) (s : St F) : St F :=
  let d0 : Vec F S4096x1 .f32 := if cond0_0 i then k0_pay2 (F := F) else s.s0
  let d1 : Vec F S4096x1 .f32 := if cond0_1 i then k0_pay3 i x1 d0 else d0
  let d2 : Vec F S4096x1 .f32 := if cond0_2 i then k0_pay8 d1 else d1
  let v2 : Vec F S4096x3 .f32 := if cond0_2 i then k0_pay9 d1 x0 x2 x3 x4 x5 x6 else s.s1
  let o2 : Vec F S4096x3 .f32 := if cond0_2 i then k0_pay4 (F := F) else s.out
  let o3 : Vec F S4096x3 .f32 := if h : cond0_3 i then k0_pay5 i x1 (vrows i h v2) o2 else o2
  let o4 : Vec F S4096x3 .f32 := if cond0_4 i then k0_pay6 d2 o3 x7 else o3
  ⟨o4, d2, v2⟩

/-- The grid coordinate of the `n`-th point (the grid has one axis of 16 points, walked in order). -/
def pt (n : ℕ) : grid0.Coords := fun a => match a with
  | ⟨0, _⟩ => ⟨n % 16, Nat.mod_lt _ (by decide)⟩

/-- The state after the points 0 … n, from small inputs that do not change over the grid, the row block of the
    adjacency each point streams (`blk`), and whatever the three buffers held before the first point (`d`). -/
def foldSt (x0 : Vec F S4096x3 .f32) (x2 : Vec F S3x16 .f32) (x3 : Vec F S1x16 .f32) (x4 : Vec F S16x3 .f32)
    (x5 : Vec F S1x3 .f32) (x6 : Vec F S3x3 .f32) (x7 : Vec F S1x3 .f32) (blk : ℕ → Vec F S512x4096 .f32) (d : St F) :
    ℕ → St F
  | 0 => step (pt 0) x0 (blk 0) x2 x3 x4 x5 x6 x7 d
  | n + 1 => step (pt (n + 1)) x0 (blk (n + 1)) x2 x3 x4 x5 x6 x7 (foldSt x0 x2 x3 x4 x5 x6 x7 blk d n)

/-- The row of the adjacency that row `k` of the block streamed at coordinate `i` is. -/
def rowOf (i : grid0.Coords) (k : Fin 512) : Fin 4096 :=
  ⟨512 * ((i 0).val % 8) + k.val, by have := k.isLt; have : (i 0).val % 8 < 8 := Nat.mod_lt _ (by decide); omega⟩

end Cert.KernelIdeal.Hand

end
-- ==== Proof.Conds.lean ====
/-
  The schedule of the kernel: which of the body's five guards holds at which of the 16 grid points (decided over
  the grid), the staging buffer each window is on at a point, the two scratch buffers as whole memrefs, and the
  region's default invariant spelt over them.
-/
import proofs.«131665_g88562225643609_cont_sun_c4_799_2_alg».proof.Proof.Step
import proofs.«131665_g88562225643609_cont_sun_c4_799_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Guard 0 holds at the first point only. -/
theorem hcond0_0 : ∀ t : Fin cfg0.N, cond0_0 (grid0.coords t) ↔ t.val = 0 :=
  (by decide +kernel : ∀ t : Fin grid0.N, cond0_0 (grid0.coords t) ↔ t.val = 0)
/-- Guard 1 holds at the points before point 8. -/
theorem hcond0_1 : ∀ t : Fin cfg0.N, cond0_1 (grid0.coords t) ↔ t.val < 8 :=
  (by decide +kernel : ∀ t : Fin grid0.N, cond0_1 (grid0.coords t) ↔ t.val < 8)
/-- Guard 2 holds at point 8 only. -/
theorem hcond0_2 : ∀ t : Fin cfg0.N, cond0_2 (grid0.coords t) ↔ t.val = 8 :=
  (by decide +kernel : ∀ t : Fin grid0.N, cond0_2 (grid0.coords t) ↔ t.val = 8)
/-- Guard 3 holds from point 8 on. -/
theorem hcond0_3 : ∀ t : Fin cfg0.N, cond0_3 (grid0.coords t) ↔ 8 ≤ t.val :=
  (by decide +kernel : ∀ t : Fin grid0.N, cond0_3 (grid0.coords t) ↔ 8 ≤ t.val)
/-- Guard 4 holds at the last point only. -/
theorem hcond0_4 : ∀ t : Fin cfg0.N, cond0_4 (grid0.coords t) ↔ t.val = 15 :=
  (by decide +kernel : ∀ t : Fin grid0.N, cond0_4 (grid0.coords t) ↔ t.val = 15)

/-- The input windows are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- The output window is idle exactly at the points before point 8: the body stores nothing into it there. -/
theorem idleAt0_8 : ∀ t : Fin cfg0.N, cfg0.idle 8 (grid0.coords t) = decide (t.val < 8) :=
  (by decide +kernel : ∀ t : Fin grid0.N, cfg0.idle 8 (grid0.coords t) = decide (t.val < 8))

/-- Each window's current staging memref at point `t`, as the pipeline passes it to the body, and its wholeness. -/
abbrev ms0_0 (t : Fin cfg0.N) : Memref sig .tc .vmem S4096x3 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S512x4096 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S3x16 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S1x16 .f32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S16x3 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S1x3 .f32 := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Memref sig .tc .vmem S3x3 .f32 := win0_6.stage (cfg0.slots t 6)
abbrev hs0_6 (t : Fin cfg0.N) : (ms0_6 t).IsWhole := Facts₀.hstage0_6 ((cfg0.slots t 6).cast Facts₀.nbuf0_6)
abbrev ms0_7 (t : Fin cfg0.N) : Memref sig .tc .vmem S1x3 .f32 := win0_7.stage (cfg0.slots t 7)
abbrev hs0_7 (t : Fin cfg0.N) : (ms0_7 t).IsWhole := Facts₀.hstage0_7 ((cfg0.slots t 7).cast Facts₀.nbuf0_7)
abbrev ms0_8 (t : Fin cfg0.N) : Memref sig .tc .vmem S4096x3 .f32 := win0_8.stage (cfg0.slots t 8)
abbrev hs0_8 (t : Fin cfg0.N) : (ms0_8 t).IsWhole := Facts₀.hstage0_8 ((cfg0.slots t 8).cast Facts₀.nbuf0_8)
/-- The two scratch operands: whole scoped buffers of the kernel's own. -/
abbrev scM0_0 : Memref sig .tc .vmem S4096x1 .f32 := Memref.whole cc0_scratch0
abbrev scM0_1 : Memref sig .tc .vmem S4096x3 .f32 := Memref.whole cc0_scratch1

/-- The region's default invariant over the two scratch memrefs, each owned at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/-
  The body at a grid point of case A, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runA (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : cond0_0 i) (hc1 : cond0_1 i) (hc2 : ¬cond0_2 i) (hc3 : ¬cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ (∃ f, arg10.view.loc (c : Thread nD τ) ↦[arg10.view.set]{fullShare} arg10.view.writes (Elt F) f LS0) ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; isplitr; · ipureintro; exact harg11.read_unread _
    iexact HS1

end Cert.KernelIdeal.Hand

end
-- ==== Proof.RunB.lean ====
/-
  The body at a grid point of case B, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runB (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : cond0_1 i) (hc2 : ¬cond0_2 i) (hc3 : ¬cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ (∃ f, arg10.view.loc (c : Thread nD τ) ↦[arg10.view.set]{fullShare} arg10.view.writes (Elt F) f LS0) ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; isplitr; · ipureintro; exact harg11.read_unread _
    iexact HS1

end Cert.KernelIdeal.Hand

end
-- ==== Proof.RunC.lean ====
/-
  The body at a grid point of case C, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : ¬cond0_1 i) (hc2 : cond0_2 i) (hc3 : cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    (LO : List (View.Piece (Elt F) S4096x3 .f32)) ×' (LS0 : List (View.Piece (Elt F) S4096x1 .f32)) ×' { LS1 : List (View.Piece (Elt F) S4096x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Hand

end
-- ==== Proof.RunD.lean ====
/-
  The body at a grid point of case D, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runD (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : ¬cond0_1 i) (hc2 : ¬cond0_2 i) (hc3 : cond0_3 i) (hc4 : ¬cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LO : List (View.Piece (Elt F) S4096x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg10 fullShare xs0 ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; isplitr; · ipureintro; exact harg11.read_unread _
    iexact HS1

end Cert.KernelIdeal.Hand

end
-- ==== Proof.RunE.lean ====
/-
  The body at a grid point of case E, run on whole staging memrefs at named contents: the eight inputs, the output
  block, the degree column and the message block.  The run hands back every buffer it only read at the contents
  it found, and every buffer it stored into with the list of rectangles it wrote and what it wrote there (last
  store first); the lists are whatever the symbolic run of the printed body finds.
-/
import proofs.«131665_g88562225643609_cont_sun_c4_799_2_alg».proof.Proof.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runE (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (hc0 : ¬cond0_0 i) (hc1 : ¬cond0_1 i) (hc2 : ¬cond0_2 i) (hc3 : cond0_3 i) (hc4 : cond0_4 i)
    (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32) :
    { LO : List (View.Piece (Elt F) S4096x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg10 fullShare xs0 ∗ owns (c : Thread nD τ) arg11 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; isplitr; · ipureintro; exact harg11.read_unread _
    iexact HS1

end Cert.KernelIdeal.Hand

end
-- ==== Proof.Pieces.lean ====
/-
  What each case's run leaves in the three kept buffers is what the pure step function says.

  Every store of the body covers its whole buffer, so the contents a buffer ends with are the payload of the last
  store into it, and every load through a whole buffer reads the buffer's contents; the one partial load — 512 rows
  of the message block — reads those rows.
-/
import proofs.«131665_g88562225643609_cont_sun_c4_799_2_alg».proof.Proof.RunA
import proofs.«131665_g88562225643609_cont_sun_c4_799_2_alg».proof.Proof.RunB
import proofs.«131665_g88562225643609_cont_sun_c4_799_2_alg».proof.Proof.RunC
import proofs.«131665_g88562225643609_cont_sun_c4_799_2_alg».proof.Proof.RunD
import proofs.«131665_g88562225643609_cont_sun_c4_799_2_alg».proof.Proof.RunE
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

section
variable (c : Dev nD) (i : grid0.Coords) (arg1 : Memref sig .tc .vmem S4096x3 .f32) (harg1 : arg1.IsWhole) (arg2 : Memref sig .tc .vmem S512x4096 .f32) (harg2 : arg2.IsWhole) (arg3 : Memref sig .tc .vmem S3x16 .f32) (harg3 : arg3.IsWhole) (arg4 : Memref sig .tc .vmem S1x16 .f32) (harg4 : arg4.IsWhole) (arg5 : Memref sig .tc .vmem S16x3 .f32) (harg5 : arg5.IsWhole) (arg6 : Memref sig .tc .vmem S1x3 .f32) (harg6 : arg6.IsWhole) (arg7 : Memref sig .tc .vmem S3x3 .f32) (harg7 : arg7.IsWhole) (arg8 : Memref sig .tc .vmem S1x3 .f32) (harg8 : arg8.IsWhole) (arg9 : Memref sig .tc .vmem S4096x3 .f32) (harg9 : arg9.IsWhole) (arg10 : Memref sig .tc .vmem S4096x1 .f32) (harg10 : arg10.IsWhole) (arg11 : Memref sig .tc .vmem S4096x3 .f32) (harg11 : arg11.IsWhole) (x0 : Vec F S4096x3 .f32) (x1 : Vec F S512x4096 .f32) (x2 : Vec F S3x16 .f32) (x3 : Vec F S1x16 .f32) (x4 : Vec F S16x3 .f32) (x5 : Vec F S1x3 .f32) (x6 : Vec F S3x3 .f32) (x7 : Vec F S1x3 .f32) (xo : Vec F S4096x3 .f32) (xs0 : Vec F S4096x1 .f32) (xs1 : Vec F S4096x3 .f32)

/-! ## The stores cover -/
theorem coverA_10 (hc0 : cond0_0 i) (hc1 : cond0_1 i) (hc2 : ¬cond0_2 i) (hc3 : ¬cond0_3 i) (hc4 : ¬cond0_4 i) (y : S4096x1.Idx) :
    ∃ pc ∈ (runA c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x1.size (by sl_kernel_rfl) y

theorem coverB_10 (hc0 : ¬cond0_0 i) (hc1 : cond0_1 i) (hc2 : ¬cond0_2 i) (hc3 : ¬cond0_3 i) (hc4 : ¬cond0_4 i) (y : S4096x1.Idx) :
    ∃ pc ∈ (runB c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x1.size (by sl_kernel_rfl) y

theorem coverC_9 (hc0 : ¬cond0_0 i) (hc1 : ¬cond0_1 i) (hc2 : cond0_2 i) (hc3 : cond0_3 i) (hc4 : ¬cond0_4 i) (y : S4096x3.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x3.size (by sl_kernel_rfl) y

theorem coverC_10 (hc0 : ¬cond0_0 i) (hc1 : ¬cond0_1 i) (hc2 : cond0_2 i) (hc3 : cond0_3 i) (hc4 : ¬cond0_4 i) (y : S4096x1.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.1 S4096x1.size (by sl_kernel_rfl) y

theorem coverC_11 (hc0 : ¬cond0_0 i) (hc1 : ¬cond0_1 i) (hc2 : cond0_2 i) (hc3 : cond0_3 i) (hc4 : ¬cond0_4 i) (y : S4096x3.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.2.1 S4096x3.size (by sl_kernel_rfl) y

theorem coverD_9 (hc0 : ¬cond0_0 i) (hc1 : ¬cond0_1 i) (hc2 : ¬cond0_2 i) (hc3 : cond0_3 i) (hc4 : ¬cond0_4 i) (y : S4096x3.Idx) :
    ∃ pc ∈ (runD c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runD c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x3.size (by sl_kernel_rfl) y

theorem coverE_9 (hc0 : ¬cond0_0 i) (hc1 : ¬cond0_1 i) (hc2 : ¬cond0_2 i) (hc3 : cond0_3 i) (hc4 : cond0_4 i) (y : S4096x3.Idx) :
    ∃ pc ∈ (runE c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1, y ∈ pc.1.set :=
  View.cover_of_tiledL (runE c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1 S4096x3.size (by sl_kernel_rfl) y

/-! ## The contents left -/

/-- Case A: the degree column is zeroed and takes the first block's column sums. -/
theorem valA_s0 (hc0 : cond0_0 i) (hc1 : cond0_1 i) (hc2 : ¬cond0_2 i) (hc3 : ¬cond0_3 i) (hc4 : ¬cond0_4 i) (f) (s : St F) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).s0 := by
  rw [View.read_writes_eq_canon _ _ _ (coverA_10 c i arg1 harg1 arg2 harg2 arg3 harg3 arg4 harg4 arg5 harg5 arg6 harg6 arg7 harg7 arg8 harg8 arg9 harg9 arg10 harg10 arg11 harg11 x0 x1 x2 x3 x4 x5 x6 x7 xo xs0 xs1 hc0 hc1 hc2 hc3 hc4)]
  unfold runA; dsimp only; sl_unfold_run_names
  rw [View.canon_cons_unit_zero (S := S4096x1) hz2, View.readCov_unit_zero (S := S4096x1) _ hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_pos hc0, if_pos hc1, if_neg hc2, dif_neg hc3, if_neg hc4]

/-- Case B: the degree column takes one more block's column sums. -/
theorem valB_s0 (hc0 : ¬cond0_0 i) (hc1 : cond0_1 i) (hc2 : ¬cond0_2 i) (hc3 : ¬cond0_3 i) (hc4 : ¬cond0_4 i) (f) (s : St F) (hs0 : s.s0 = xs0) :
    arg10.view.read (Elt F) (arg10.view.writes (Elt F) f (runB c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).s0 := by
  subst hs0
  rw [View.read_writes_eq_canon _ _ _ (coverB_10 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runB; dsimp only; sl_unfold_run_names
  rw [View.canon_unit_zero (S := S4096x1) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_neg hc0, if_pos hc1, if_neg hc2, dif_neg hc3, if_neg hc4]

/-- Case C: the normalisation column. -/
theorem valC_s0 (hc0 : ¬cond0_0 i) (hc1 : ¬cond0_1 i) (hc2 : cond0_2 i) (hc3 : cond0_3 i) (hc4 : ¬cond0_4 i) (f) (s : St F) (hs0 : s.s0 = xs0) :
    arg10.view.read (Elt F) (arg10.view.writes (Elt F) f (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.1) = (step i x0 x1 x2 x3 x4 x5 x6 x7 s).s0 := by
  subst hs0
  rw [View.read_writes_eq_canon _ _ _ (coverC_10 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runC; dsimp only; sl_unfold_run_names
  rw [View.canon_unit_zero (S := S4096x1) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_neg hc0, if_neg hc1, if_pos hc2, dif_pos hc3, if_neg hc4]

/-- Case C: the message block. -/
theorem valC_s1 (hc0 : ¬cond0_0 i) (hc1 : ¬cond0_1 i) (hc2 : cond0_2 i) (hc3 : cond0_3 i) (hc4 : ¬cond0_4 i) (f) (s : St F) (hs0 : s.s0 = xs0) :
    arg11.view.read (Elt F) (arg11.view.writes (Elt F) f (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).2.2.1) = (step i x0 x1 x2 x3 x4 x5 x6 x7 s).s1 := by
  subst hs0
  rw [View.read_writes_eq_canon _ _ _ (coverC_11 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runC; dsimp only; sl_unfold_run_names
  rw [View.canon_unit_zero (S := S4096x3) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, if_neg hc0, if_neg hc1, if_pos hc2, dif_pos hc3, if_neg hc4]

/-- Case C: the output block, zeroed, takes the first block's product. -/
theorem valC_out (hc0 : ¬cond0_0 i) (hc1 : ¬cond0_1 i) (hc2 : cond0_2 i) (hc3 : cond0_3 i) (hc4 : ¬cond0_4 i) (f) (s : St F) (hs0 : s.s0 = xs0) :
    arg9.view.read (Elt F) (arg9.view.writes (Elt F) f (runC c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).out := by
  subst hs0
  rw [View.read_writes_eq_canon _ _ _ (coverC_9 c i arg1 harg1 arg2 harg2 arg3 harg3 arg4 harg4 arg5 harg5 arg6 harg6 arg7 harg7 arg8 harg8 arg9 harg9 arg10 harg10 arg11 harg11 x0 x1 x2 x3 x4 x5 x6 x7 xo s.s0 xs1 hc0 hc1 hc2 hc3 hc4)]
  unfold runC; dsimp only; sl_unfold_run_names
  rw [View.canon_cons_unit_zero (S := S4096x3) hz2, View.readCov_unit_zero (S := S4096x3) _ hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  rw [View.read_writes_junk_eq_canon, View.canon_unit_zero (S := S4096x3) hz2]
  simp only [step, vrows, if_neg hc0, if_neg hc1, if_pos hc2, dif_pos hc3, if_neg hc4]

/-- Cases D and E keep the normalisation column and the message block. -/
theorem stepDE_s0 (hc0 : ¬cond0_0 i) (hc1 : ¬cond0_1 i) (hc2 : ¬cond0_2 i) (s : St F) : (step i x0 x1 x2 x3 x4 x5 x6 x7 s).s0 = s.s0 := by
  simp only [step, if_neg hc0, if_neg hc1, if_neg hc2]
theorem stepDE_s1 (hc2 : ¬cond0_2 i) (s : St F) : (step i x0 x1 x2 x3 x4 x5 x6 x7 s).s1 = s.s1 := by
  simp only [step, if_neg hc2]

/-- Case D: the output block takes one more block's product. -/
theorem valD_out (hc0 : ¬cond0_0 i) (hc1 : ¬cond0_1 i) (hc2 : ¬cond0_2 i) (hc3 : cond0_3 i) (hc4 : ¬cond0_4 i) (f) (s : St F) (hso : s.out = xo) (hs1 : s.s1 = xs1) :
    arg9.view.read (Elt F) (arg9.view.writes (Elt F) f (runD c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).out := by
  subst hso; subst hs1
  rw [View.read_writes_eq_canon _ _ _ (coverD_9 c i arg1 harg1 arg2 harg2 arg3 harg3 arg4 harg4 arg5 harg5 arg6 harg6 arg7 harg7 arg8 harg8 arg9 harg9 arg10 harg10 arg11 harg11 x0 x1 x2 x3 x4 x5 x6 x7 s.out xs0 s.s1 hc0 hc1 hc2 hc3 hc4)]
  unfold runD; dsimp only; sl_unfold_run_names
  rw [View.canon_unit_zero (S := S4096x3) hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, vrows, if_neg hc0, if_neg hc1, if_neg hc2, dif_pos hc3, if_neg hc4]

/-- Case E: the last block's product, then the scaling and the bias. -/
theorem valE_out (hc0 : ¬cond0_0 i) (hc1 : ¬cond0_1 i) (hc2 : ¬cond0_2 i) (hc3 : cond0_3 i) (hc4 : cond0_4 i) (f) (s : St F) (hso : s.out = xo) (hs0 : s.s0 = xs0) (hs1 : s.s1 = xs1) :
    arg9.view.read (Elt F) (arg9.view.writes (Elt F) f (runE c i arg1 harg1 arg2 harg2 arg3 harg3 arg4 harg4 arg5 harg5 arg6 harg6 arg7 harg7 arg8 harg8 arg9 harg9 arg10 harg10 arg11 harg11 hc0 hc1 hc2 hc3 hc4 x0 x1 x2 x3 x4 x5 x6 x7 xo xs0 xs1).1) = (step i x0 x1 x2 x3 x4 x5 x6 x7 s).out := by
  subst hso; subst hs0; subst hs1
  rw [View.read_writes_eq_canon _ _ _ (coverE_9 c i arg1 harg1 arg2 harg2 arg3 harg3 arg4 harg4 arg5 harg5 arg6 harg6 arg7 harg7 arg8 harg8 arg9 harg9 arg10 harg10 arg11 harg11 x0 x1 x2 x3 x4 x5 x6 x7 s.out s.s0 s.s1 hc0 hc1 hc2 hc3 hc4)]
  unfold runE; dsimp only; sl_unfold_run_names
  rw [View.canon_cons_unit_zero (S := S4096x3) hz2, View.readCov_unit_zero (S := S4096x3) _ hz2]
  simp only [View.readAt_eq_ld, Memref.IsWhole.read_unread, View.ld_unit_zero (S := S4096x3) hz2, View.ld_unit_zero (S := S512x4096) hz2, View.ld_unit_zero (S := S3x16) hz2, View.ld_unit_zero (S := S1x16) hz2, View.ld_unit_zero (S := S16x3) hz2, View.ld_unit_zero (S := S1x3) hz2, View.ld_unit_zero (S := S3x3) hz2, View.ld_unit_zero (S := S4096x1) hz2]
  simp only [step, vrows, if_neg hc0, if_neg hc1, if_neg hc2, dif_pos hc3, if_pos hc4]

end

end Cert.KernelIdeal.Hand

end
-- ==== Proof.Data.lean ====
/-
  The region's proof data with every kept buffer NAMED, and the body's obligation at every grid point.

  After point n the three kept buffers hold the pure state `stAt n`: one `step` from what point n - 1 left (from
  arbitrary contents at point 0), at the point's coordinate and input blocks.  The output window's staging buffer
  is idle before point 8 (the body stores nothing into it there) and holds `(stAt n).out` from point 8 on; the
  degree column holds `(stAt n).s0` after every point; the message block is written whole at point 8 and holds
  `(stAt n).s1` from then on (before that, whatever it held).  The body obligation is a case split on the point:
  each case's run applies, and what it leaves is the step's component by the lemmas on the stores.
-/
import proofs.«131665_g88562225643609_cont_sun_c4_799_2_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nobody names: what the three buffers hold before the first point. -/
def junkSt : St F := ⟨fun _ => Classical.choice (Elt.nonempty F .f32), fun _ => Classical.choice (Elt.nonempty F .f32), fun _ => Classical.choice (Elt.nonempty F .f32)⟩

/-- The three kept buffers after point `n`. -/
def stAt (c : Dev nD) : (n : ℕ) → n < cfg0.N → St F
  | 0, hn => step (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) junkSt
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (stAt c n (Nat.lt_of_succ_lt hn))

/-- What point `t` finds: what the point before left, or arbitrary contents at the first point. -/
def prevSt (c : Dev nD) (t : Fin cfg0.N) : St F :=
  if h : t.val = 0 then junkSt else stAt m c (t.val - 1) (Nat.lt_of_le_of_lt (Nat.sub_le _ _) t.isLt)

theorem stAt_eq (c : Dev nD) (t : Fin cfg0.N) :
    stAt m c t.val t.isLt = step (grid0.coords t) (iblk m c 0 t) (iblk m c 1 t) (iblk m c 2 t) (iblk m c 3 t) (iblk m c 4 t) (iblk m c 5 t) (iblk m c 6 t) (iblk m c 7 t) (prevSt m c t) := by
  obtain ⟨n, hn⟩ := t
  unfold prevSt
  cases n with
  | zero => rw [dif_pos rfl]; rfl
  | succ n => rw [dif_neg (Nat.succ_ne_zero n)]; rfl

theorem prevSt_pos (c : Dev nD) (t : Fin cfg0.N) (ht : t.val ≠ 0) :
    prevSt m c t = stAt m c (t.val - 1) (Nat.lt_of_le_of_lt (Nat.sub_le _ _) t.isLt) := by
  unfold prevSt; rw [dif_neg ht]

/-- The message block in the invariant after point `n`: named from point 8 on. -/
def S1At (c : Dev nD) (n : ℕ) (hn : n < cfg0.N) : sProp 𝕄 :=
  if n < 8 then iprop(∃ d, owns (c : Thread nD τ) scM0_1 fullShare d)
  else owns (c : Thread nD τ) scM0_1 fullShare (stAt m c n hn).s1

/-- The region invariant before position `n`: before the first point the default one (both scratch buffers at
    anything); afterwards the degree column at what the point before left, the message block as `S1At` says, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (stAt m c n hn).s0 ∗ S1At m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAt m c n hn).s0 ∗ S1At m c n hn) ∗ (∃ r, prngReg c r)) := rfl

theorem PhiS_pos (c : Dev nD) (n : ℕ) (h : n ≤ cfg0.N) (hz : n ≠ 0) :
    PhiS m c n h = iprop(iprop(owns (c : Thread nD τ) scM0_0 fullShare (stAt m c (n - 1) (by omega)).s0 ∗ S1At m c (n - 1) (by omega)) ∗ (∃ r, prngReg c r)) := by
  cases n with
  | zero => exact absurd rfl hz
  | succ n => rfl

/-! ## The pipeline's proof data -/

/-- The arrays as the region finds them; after the body at point `t` each input's buffer at its block and the
    output's at the state's output block; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The output window is written back at the last point only. -/
theorem flush8_false (t : Fin cfg0.N) (ht : t.val ≠ 15) : (cfg0.win 8).flush t = false := by
  have hN : t.val < 16 := lt_of_lt_of_eq t.isLt (show cfg0.N = 16 from N_0)
  exact Bool.eq_false_iff.mpr fun h => ht (by have := (flush0_8 t).mp h; omega)

theorem idle8_true (t : Fin cfg0.N) (ht : t.val < 8) : cfg0.idle 8 (cfg0.grid.coords t) = true := by
  rw [show cfg0.idle 8 (cfg0.grid.coords t) = decide (t.val < 8) from idleAt0_8 t]; exact decide_eq_true ht
theorem idle8_false (t : Fin cfg0.N) (ht : 8 ≤ t.val) : cfg0.idle 8 (cfg0.grid.coords t) = false := by
  rw [show cfg0.idle 8 (cfg0.grid.coords t) = decide (t.val < 8) from idleAt0_8 t]; exact decide_eq_false (by omega)

/-- After point 8 the output's staging buffer holds what the point before left: no write-back in between, and the
    point before was live for the window. -/
theorem before0_8_pos (c : Dev nD) (t : Fin cfg0.N) (ht : 8 < t.val) (d) :
    (dats m 0 c).before 8 t d = (stAt m c (t.val - 1) (Nat.lt_of_le_of_lt (Nat.sub_le _ _) t.isLt)).out := by
  have hN : t.val < 16 := lt_of_lt_of_eq t.isLt (show cfg0.N = 16 from N_0)
  rw [(dats m 0 c).before_of_pos 8 t (by omega) ((cfg0.win 8).fetch_out rfl t),
    flush8_false ⟨t.val - 1, Nat.lt_of_le_of_lt (Nat.sub_le _ _) t.isLt⟩ (by show t.val - 1 ≠ 15; omega), if_neg Bool.false_ne_true]
  unfold Dat.left
  rw [idle8_false ⟨t.val - 1, Nat.lt_of_le_of_lt (Nat.sub_le _ _) t.isLt⟩ (by show 8 ≤ t.val - 1; omega)]
  dsimp only
  unfold Dat.kept
  rw [Pipeline.fill_of_clip_none 8 _ (fun _ => rfl) d ((dats m 0 c).after 8 _), Window.fill_cut, after0_8]

theorem leaves8_idle (c : Dev nD) (t : Fin cfg0.N) (ht : t.val < 8) :
    (dats m 0 c).leavesExact 8 t = iprop(∃ d, owns (c : Thread nD τ) (ms0_8 t) fullShare ((dats m 0 c).before 8 t d)) :=
  (dats m 0 c).leavesExact_idle 8 t (idle8_true t ht) (flush8_false t (by omega))

theorem leaves8_live (c : Dev nD) (t : Fin cfg0.N) (ht : 8 ≤ t.val) :
    (dats m 0 c).leavesExact 8 t = owns (c : Thread nD τ) (ms0_8 t) fullShare (stAt m c t.val t.isLt).out := by
  unfold Dat.leavesExact; rw [idle8_false t ht]; dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The first point: both scratch buffers and the output's buffer hold anything; the degree column is zeroed and
    takes the first block's column sums. -/
theorem sound_A (c : Dev nD) (t : Fin cfg0.N) (h0 : t.val = 0) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_idle m c t (by omega)]
  rw [PhiS_castSucc m c t, PhiS_zero m c _ _ h0, PhiA0_eq]
  rw [show S1At m c t.val t.isLt = iprop(∃ d, owns (c : Thread nD τ) scM0_1 fullShare d) from if_pos (by omega)]
  rw [stAt_eq m c t]
  iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr (by omega)) (fun h => by have := (hcond0_2 t).mp h; omega) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) ((dats m 0 c).before 8 t d8) ds0 ds1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, HS1⟩
  isplitl [HS0 HS1 Hg]
  · isplitl [HS0 HS1]
    · isplitl [HS0]
      · unfold owns; iexists _; isplitr
        swap; · iexact HS0
        ipureintro; exact valA_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) ds0 ds1 ((hcond0_0 t).mpr h0) ((hcond0_1 t).mpr (by omega)) (fun h => by have := (hcond0_2 t).mp h; omega) (fun h => by have := (hcond0_3 t).mp h; omega) (fun h => by have := (hcond0_4 t).mp h; omega) es0 (prevSt m c t)
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4000000 in
/-- Points 1 to 7: the degree column takes one more block's column sums. -/
theorem sound_B (c : Dev nD) (t : Fin cfg0.N) (h0 : t.val ≠ 0) (h8 : t.val < 8) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_idle m c t h8]
  rw [PhiS_castSucc m c t, PhiS_pos m c _ _ h0]
  rw [show S1At m c t.val t.isLt = iprop(∃ d, owns (c : Thread nD τ) scM0_1 fullShare d) from if_pos h8]
  rw [show S1At m c (t.val - 1) (by omega) = iprop(∃ d, owns (c : Thread nD τ) scM0_1 fullShare d) from if_pos (by omega)]
  rw [stAt_eq m c t]
  iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) ((hcond0_1 t).mpr (by omega)) (fun h => by have := (hcond0_2 t).mp h; omega) (fun h => by have := (hcond0_3 t).mp h; omega) (fun h => by have := (hcond0_4 t).mp h; omega) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, HS1⟩
  isplitl [HS0 HS1 Hg]
  · isplitl [HS0 HS1]
    · isplitl [HS0]
      · unfold owns; iexists _; isplitr
        swap; · iexact HS0
        ipureintro; exact valB_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) ((hcond0_1 t).mpr (by omega)) (fun h => by have := (hcond0_2 t).mp h; omega) (fun h => by have := (hcond0_3 t).mp h; omega) (fun h => by have := (hcond0_4 t).mp h; omega) es0 (prevSt m c t) (by rw [prevSt_pos m c t h0])
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4000000 in
/-- Point 8: the degree column becomes the normalisation, the message block is formed, the output block is zeroed
    and takes the first block's product. -/
theorem sound_C (c : Dev nD) (t : Fin cfg0.N) (h8 : t.val = 8) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_live m c t (by omega)]
  rw [PhiS_castSucc m c t, PhiS_pos m c _ _ (by omega)]
  rw [show S1At m c t.val t.isLt = owns (c : Thread nD τ) scM0_1 fullShare (stAt m c t.val t.isLt).s1 from if_neg (by omega)]
  rw [show S1At m c (t.val - 1) (by omega) = iprop(∃ d, owns (c : Thread nD τ) scM0_1 fullShare d) from if_pos (by omega)]
  rw [stAt_eq m c t]
  iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) (fun h => by have := (hcond0_1 t).mp h; omega) ((hcond0_2 t).mpr (by omega)) ((hcond0_3 t).mpr (by omega)) (fun h => by have := (hcond0_4 t).mp h; omega) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%eo, H8⟩, ⟨%es0, HS0⟩, ⟨%es1, HS1⟩⟩
  isplitl [HS0 HS1 Hg]
  · isplitl [HS0 HS1]
    · isplitl [HS0]
      · unfold owns; iexists _; isplitr
        swap; · iexact HS0
        ipureintro; exact valC_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) (fun h => by have := (hcond0_1 t).mp h; omega) ((hcond0_2 t).mpr (by omega)) ((hcond0_3 t).mpr (by omega)) (fun h => by have := (hcond0_4 t).mp h; omega) es0 (prevSt m c t) (by rw [prevSt_pos m c t (by omega)])
      unfold owns; iexists _; isplitr
      swap; · iexact HS1
      ipureintro; exact valC_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) (fun h => by have := (hcond0_1 t).mp h; omega) ((hcond0_2 t).mpr (by omega)) ((hcond0_3 t).mpr (by omega)) (fun h => by have := (hcond0_4 t).mp h; omega) es1 (prevSt m c t) (by rw [prevSt_pos m c t (by omega)])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact valC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((dats m 0 c).before 8 t d8) (stAt m c (t.val - 1) (Nat.lt_of_le_of_lt (Nat.sub_le _ _) t.isLt)).s0 ds1 (fun h => by have := (hcond0_0 t).mp h; omega) (fun h => by have := (hcond0_1 t).mp h; omega) ((hcond0_2 t).mpr (by omega)) ((hcond0_3 t).mpr (by omega)) (fun h => by have := (hcond0_4 t).mp h; omega) eo (prevSt m c t) (by rw [prevSt_pos m c t (by omega)])

set_option maxHeartbeats 4000000 in
/-- Points 9 to 14: the output block takes one more block's product. -/
theorem sound_D (c : Dev nD) (t : Fin cfg0.N) (h9 : 8 < t.val) (h15 : t.val < 15) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_live m c t (by omega)]
  simp only [before0_8_pos m c t (by omega)]
  rw [PhiS_castSucc m c t, PhiS_pos m c _ _ (by omega)]
  rw [show S1At m c t.val t.isLt = owns (c : Thread nD τ) scM0_1 fullShare (stAt m c t.val t.isLt).s1 from if_neg (by omega)]
  rw [show S1At m c (t.val - 1) (by omega) = owns (c : Thread nD τ) scM0_1 fullShare (stAt m c (t.val - 1) (Nat.lt_of_le_of_lt (Nat.sub_le _ _) t.isLt)).s1 from if_neg (by omega)]
  rw [stAt_eq m c t]
  rw [stepDE_s0 (grid0.coords t) (iblk m c 0 t) (iblk m c 1 t) (iblk m c 2 t) (iblk m c 3 t) (iblk m c 4 t) (iblk m c 5 t) (iblk m c 6 t) (iblk m c 7 t) (fun h => by have := (hcond0_0 t).mp h; omega) (fun h => by have := (hcond0_1 t).mp h; omega) (fun h => by have := (hcond0_2 t).mp h; omega) (prevSt m c t),
    stepDE_s1 (grid0.coords t) (iblk m c 0 t) (iblk m c 1 t) (iblk m c 2 t) (iblk m c 3 t) (iblk m c 4 t) (iblk m c 5 t) (iblk m c 6 t) (iblk m c 7 t) (fun h => by have := (hcond0_2 t).mp h; omega) (prevSt m c t), prevSt_pos m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) (fun h => by have := (hcond0_1 t).mp h; omega) (fun h => by have := (hcond0_2 t).mp h; omega) ((hcond0_3 t).mpr (by omega)) (fun h => by have := (hcond0_4 t).mp h; omega) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%eo, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact valD_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1 (fun h => by have := (hcond0_0 t).mp h; omega) (fun h => by have := (hcond0_1 t).mp h; omega) (fun h => by have := (hcond0_2 t).mp h; omega) ((hcond0_3 t).mpr (by omega)) (fun h => by have := (hcond0_4 t).mp h; omega) eo (stAt m c (t.val - 1) (Nat.lt_of_le_of_lt (Nat.sub_le _ _) t.isLt)) rfl rfl

set_option maxHeartbeats 4000000 in
/-- The last point: the last block's product, then the scaling and the bias. -/
theorem sound_E (c : Dev nD) (t : Fin cfg0.N) (h15 : t.val = 15) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [liveAt0_0 t]; dsimp only [dats]]
  rw [show (dats m 0 c).leavesExact 1 t = owns (c : Thread nD τ) (ms0_1 t) fullShare (iblk m c 1 t) from by
    unfold Dat.leavesExact; rw [liveAt0_1 t]; dsimp only [dats]]
  rw [show (dats m 0 c).leavesExact 2 t = owns (c : Thread nD τ) (ms0_2 t) fullShare (iblk m c 2 t) from by
    unfold Dat.leavesExact; rw [liveAt0_2 t]; dsimp only [dats]]
  rw [show (dats m 0 c).leavesExact 3 t = owns (c : Thread nD τ) (ms0_3 t) fullShare (iblk m c 3 t) from by
    unfold Dat.leavesExact; rw [liveAt0_3 t]; dsimp only [dats]]
  rw [show (dats m 0 c).leavesExact 4 t = owns (c : Thread nD τ) (ms0_4 t) fullShare (iblk m c 4 t) from by
    unfold Dat.leavesExact; rw [liveAt0_4 t]; dsimp only [dats]]
  rw [show (dats m 0 c).leavesExact 5 t = owns (c : Thread nD τ) (ms0_5 t) fullShare (iblk m c 5 t) from by
    unfold Dat.leavesExact; rw [liveAt0_5 t]; dsimp only [dats]]
  rw [show (dats m 0 c).leavesExact 6 t = owns (c : Thread nD τ) (ms0_6 t) fullShare (iblk m c 6 t) from by
    unfold Dat.leavesExact; rw [liveAt0_6 t]; dsimp only [dats]]
  rw [show (dats m 0 c).leavesExact 7 t = owns (c : Thread nD τ) (ms0_7 t) fullShare (iblk m c 7 t) from by
    unfold Dat.leavesExact; rw [liveAt0_7 t]; dsimp only [dats]]
  rw [leaves8_live m c t (by omega)]
  simp only [before0_8_pos m c t (by omega)]
  rw [PhiS_castSucc m c t, PhiS_pos m c _ _ (by omega)]
  rw [show S1At m c t.val t.isLt = owns (c : Thread nD τ) scM0_1 fullShare (stAt m c t.val t.isLt).s1 from if_neg (by omega)]
  rw [show S1At m c (t.val - 1) (by omega) = owns (c : Thread nD τ) scM0_1 fullShare (stAt m c (t.val - 1) (Nat.lt_of_le_of_lt (Nat.sub_le _ _) t.isLt)).s1 from if_neg (by omega)]
  rw [stAt_eq m c t]
  rw [stepDE_s0 (grid0.coords t) (iblk m c 0 t) (iblk m c 1 t) (iblk m c 2 t) (iblk m c 3 t) (iblk m c 4 t) (iblk m c 5 t) (iblk m c 6 t) (iblk m c 7 t) (fun h => by have := (hcond0_0 t).mp h; omega) (fun h => by have := (hcond0_1 t).mp h; omega) (fun h => by have := (hcond0_2 t).mp h; omega) (prevSt m c t),
    stepDE_s1 (grid0.coords t) (iblk m c 0 t) (iblk m c 1 t) (iblk m c 2 t) (iblk m c 3 t) (iblk m c 4 t) (iblk m c 5 t) (iblk m c 6 t) (iblk m c 7 t) (fun h => by have := (hcond0_2 t).mp h; omega) (prevSt m c t), prevSt_pos m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => by have := (hcond0_0 t).mp h; omega) (fun h => by have := (hcond0_1 t).mp h; omega) (fun h => by have := (hcond0_2 t).mp h; omega) ((hcond0_3 t).mpr (by omega)) ((hcond0_4 t).mpr (by omega)) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%eo, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact valE_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (stAt m c (t.val - 1) (Nat.lt_of_le_of_lt (Nat.sub_le _ _) t.isLt)).out (stAt m c (t.val - 1) (Nat.lt_of_le_of_lt (Nat.sub_le _ _) t.isLt)).s0 (stAt m c (t.val - 1) (Nat.lt_of_le_of_lt (Nat.sub_le _ _) t.isLt)).s1 (fun h => by have := (hcond0_0 t).mp h; omega) (fun h => by have := (hcond0_1 t).mp h; omega) (fun h => by have := (hcond0_2 t).mp h; omega) ((hcond0_3 t).mpr (by omega)) ((hcond0_4 t).mpr (by omega)) eo (stAt m c (t.val - 1) (Nat.lt_of_le_of_lt (Nat.sub_le _ _) t.isLt)) rfl rfl rfl

/-- The body at any point. -/
theorem sound_body (c : Dev nD) (t : Fin cfg0.N) : bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val = 0
  · exact sound_A m c t h0
  by_cases h1 : t.val < 8
  · exact sound_B m c t h0 h1
  by_cases h2 : t.val = 8
  · exact sound_C m c t h2
  by_cases h3 : t.val = 15
  · exact sound_E m c t h3
  · exact sound_D m c t (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the default one back: the scratch buffers' named contents are forgotten. -/
theorem hout (c : Dev nD) : (dats m 0 c).Φ (Fin.last cfg0.N) ⊢ Pipeline.ΦA spec0 c := by
  have hN : cfg0.N = 16 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  rw [show S1At m c ((Fin.last cfg0.N).val - 1) (by rw [Fin.val_last]; omega) = owns (c : Thread nD τ) scM0_1 fullShare (stAt m c ((Fin.last cfg0.N).val - 1) (by rw [Fin.val_last]; omega)).s1 from if_neg (by rw [Fin.val_last]; omega)]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has each array of the pipeline at what
    the proof data computes — an input at its entry contents, the output at the block the last point wrote back —
    and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  What both programs compute, as one function of the eight argument arrays, entry by entry on the extended reals.

  With A(r, c) = max(adj(r, c), [r = c]) (the adjacency with self loops), deg(c) = sum over r of A(r, c) (the
  in-degree), s(c) = deg(c)^(-1/2) where deg(c) > 0 and 0 elsewhere, and the two-layer perceptron
  h = relu(relu(x W1 + b1) W3 + b3), the result is
      out(c, j) = s(c) * (sum over r of A(r, c) * (s(r) * (h Wg)(r, j))) + bg(j).
  The kernel reaches the two sums over r block by block (8 blocks of 512 rows), the reference in one pass; on the
  extended reals a finite sum does not depend on its grouping.
-/
import Idealize.ShloMosaic.PureOps.Ideal.Laws
import Idealize.ShloMosaic.Lib.ValueIdx

noncomputable section

namespace Cert.Spec

open Idealize.ShloMosaic Idealize.ShloMosaic.ValueIdx

/-- A matrix of extended reals. -/
abbrev Mat (r c : ℕ) : Type := (⟨2, ![r, c]⟩ : Shape).Idx → EReal
/-- A vector of extended reals. -/
abbrev Vc (n : ℕ) : Type := (⟨1, ![n]⟩ : Shape).Idx → EReal

/-- The float zero both programs write as the word 0. -/
abbrev zero : EReal := Ideal.ofBits .f32 0x00000000#32

/-- relu -/
def relu (a : EReal) : EReal := max a zero

/-- The adjacency with self loops. -/
def aHat (adj : Mat 4096 4096) (r c : Fin 4096) : EReal := max (adj (ix2 r c)) (if r = c then (1 : EReal) else 0)

/-- The in-degree of node `c`. -/
def deg (adj : Mat 4096 4096) (c : Fin 4096) : EReal := ∑ r : Fin 4096, aHat adj r c

/-- d ↦ d^(-1/2) where d > 0, and 0 elsewhere: the comparison, the reciprocal square root and the choice are the
    operations both programs apply. -/
def dinvOf (d : EReal) : EReal :=
  Scalar.select (FloatOps.cmpf (F := Ideal) (φ := .f32) .ogt d zero) (Ideal.rsqrt d) zero

/-- The first layer. -/
def h1 (x : Mat 4096 3) (W1 : Mat 3 16) (b1 : Vc 16) (r : Fin 4096) (k : Fin 16) : EReal :=
  relu ((∑ j : Fin 3, x (ix2 r j) * W1 (ix2 j k)) + b1 (ix1 k))

/-- The second layer. -/
def h2 (x : Mat 4096 3) (W1 : Mat 3 16) (b1 : Vc 16) (W3 : Mat 16 3) (b3 : Vc 3) (r : Fin 4096) (j : Fin 3) : EReal :=
  relu ((∑ k : Fin 16, h1 x W1 b1 r k * W3 (ix2 k j)) + b3 (ix1 j))

/-- The features times the convolution's weight. -/
def hw (x : Mat 4096 3) (W1 : Mat 3 16) (b1 : Vc 16) (W3 : Mat 16 3) (b3 : Vc 3) (Wg : Mat 3 3) (r : Fin 4096) (j : Fin 3) : EReal :=
  ∑ k : Fin 3, h2 x W1 b1 W3 b3 r k * Wg (ix2 k j)

/-- The message node `r` sends: its features scaled by its own normalisation. -/
def msg (x : Mat 4096 3) (adj : Mat 4096 4096) (W1 : Mat 3 16) (b1 : Vc 16) (W3 : Mat 16 3) (b3 : Vc 3) (Wg : Mat 3 3)
    (r : Fin 4096) (j : Fin 3) : EReal :=
  dinvOf (deg adj r) * hw x W1 b1 W3 b3 Wg r j

/-- The result. -/
def G (x : Mat 4096 3) (adj : Mat 4096 4096) (W1 : Mat 3 16) (b1 : Vc 16) (W3 : Mat 16 3) (b3 : Vc 3) (Wg : Mat 3 3)
    (bg : Vc 3) : Mat 4096 3 := fun y =>
  dinvOf (deg adj (y 0)) * (∑ r : Fin 4096, aHat adj r (y 0) * msg x adj W1 b1 W3 b3 Wg r (y 1)) + bg (ix1 (y 1))

end Cert.Spec

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibTransDot.lean ====
/-
  A matrix product of a [K, R] operand by a [K, C] operand, contracted over the shared leading axis (the
  dimension numbers lhs_contracting = [0], rhs_contracting = [0], no batch axes), read at an entry (p, q) on the
  extended reals: the sum over k of l(k, p) · r(k, q), the transposed left operand times the right one. Stated for
  ANY dimension-number record of that form, so that it serves every such product whatever the record's name and
  whatever K, R, C are.
-/
import Idealize.ShloMosaic.PureOps.Ideal.Laws
import Idealize.ShloMosaic.Lib.ValueIdx

noncomputable section

namespace Idealize.ShloMosaic.TransDot

open Idealize.ShloMosaic Idealize.ShloMosaic.ValueIdx

variable {K R C : ℕ}

/-- The dimension numbers of a product with the left operand transposed: the left operand's axis 0 is contracted with
    the right operand's axis 0; the left operand's axis 1 and the right operand's axis 1 survive, in that order; no
    batch axes. -/
structure IsTrans (d : DotDims ⟨2, ![K, R]⟩ ⟨2, ![K, C]⟩ ⟨2, ![R, C]⟩) : Prop where
  lc : d.lhsContracting = [0]
  rc : d.rhsContracting = [0]
  ln : d.lhsNonContracting = [1]
  rn : d.rhsNonContracting = [1]
  lb : d.lhsBatch = []
  rb : d.rhsBatch = []

variable {d : DotDims ⟨2, ![K, R]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's column is the result's row. -/
theorem lhs_col (h : IsTrans d) (j : (⟨2, ![R, C]⟩ : Shape).Idx) (k : d.contr.Idx) :
    (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsTrans d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

/-- One axis is contracted. -/
theorem contr_rank (h : IsTrans d) : d.contr.rank = 1 := by
  rw [d.rank_contr, h.lc]; rfl

/-- The contracted axis has the operands' shared leading size. -/
theorem contr_size (h : IsTrans d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsTrans d) {φ₁ φ₂ : FTy} (l : FVec Ideal ⟨2, ![K, R]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 k p) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 k p := funext fun a => Fin.ext (by
    match a with
    | ⟨0, _⟩ => exact (d.lhsIdx_val_of_single h.lc _ _).trans hk
    | ⟨1, _⟩ => exact lhs_col h _ _)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsTrans d) {φ₁ φ₂ : FTy} (prec : Option ContractPrecision)
    (l : FVec Ideal ⟨2, ![K, R]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 k p) * r (ix2 k q) := by
  rw [Ideal.matmul_constant_zero_apply]
  exact sum_apply h l r p q

/-- The host's matrix product read at (p, q). -/
theorem dotGeneral_apply (h : IsTrans d) {φ₁ φ₂ : FTy} (prec : Option ContractPrecision) (sched : HostSchedule)
    (l : FVec Ideal ⟨2, ![K, R]⟩ φ₁) (r : FVec Ideal ⟨2, ![K, C]⟩ φ₂) (p : Fin R) (q : Fin C) :
    FloatOps.dotGeneral d prec sched l r (ix2 p q) = ∑ k : Fin K, l (ix2 k p) * r (ix2 k q) := by
  rw [Ideal.dotGeneral_apply]
  exact sum_apply h l r p q

end Idealize.ShloMosaic.TransDot

end
-- ==== Proof.PayIdx.lean ====
/-
  The body's payload functions read at an entry, on the extended reals.

  Each payload is a composition of elementwise operations, broadcasts and matrix products into a zero
  accumulator; read at one entry it is a finite sum of products of entries of its operands.
-/
import proofs.«131665_g88562225643609_cont_sun_c4_799_2_alg».proof.Proof.Step
import proofs.«131665_g88562225643609_cont_sun_c4_799_2_alg».proof.Proof.Spec
import proofs.«131665_g88562225643609_cont_sun_c4_799_2_alg».proof.Proof.LibPlainDot
import proofs.«131665_g88562225643609_cont_sun_c4_799_2_alg».proof.Proof.LibTransDot
import Idealize.ShloMosaic.Lib.IdealHost
import Idealize.ShloMosaic.Lib.Pipeline.Value

noncomputable section

namespace Cert.KernelIdeal.Hand

open Idealize.ShloMosaic Idealize.ShloMosaic.ValueIdx Idealize.SL.Sem
open Cert.KernelIdeal Cert.KernelIdeal.Gen

/-- The first row of the block streamed at coordinate i, as the word the body computes: no step of it wraps. -/
private theorem rowBase_eq : ∀ i : grid0.Coords,
    Scalar.muli (Scalar.remsi (BitVec.ofNat 32 (i 0).val) 8#32) 512#32 = BitVec.ofNat 32 (512 * ((i 0).val % 8)) := by
  decide +kernel

/-- Words whose sum stays below 2^32 add and compare as the naturals they hold. -/
private theorem word_eq_iff (b k c : ℕ) (h : b + k < 2 ^ 32) (hc : c < 2 ^ 32) :
    IntOp.addi (BitVec.ofNat 32 k) (BitVec.ofNat 32 b) = BitVec.ofNat 32 c ↔ b + k = c := by
  unfold IntOp.addi
  rw [← BitVec.toNat_inj, BitVec.toNat_add, BitVec.toNat_ofNat, BitVec.toNat_ofNat, BitVec.toNat_ofNat]
  omega

/-- The indicator of an equality of words, widened and converted: 1 where they agree, 0 elsewhere. -/
private theorem ind_eq (a b : BitVec 32) :
    (FloatOps.sitofp .f32 ((IntOp.cmpi .eq a b).setWidth 32) : Ideal .f32) = if a = b then (1 : EReal) else 0 := by
  show (((((IntOp.cmpi .eq a b).setWidth 32).toInt : ℝ)) : EReal) = _
  by_cases h : a = b
  · have e : IntOp.cmpi .eq a b = 1#1 := by simp [IntOp.cmpi, h]
    have t : ((1#1 : BitVec 1).setWidth 32).toInt = 1 := by decide
    rw [if_pos h, e, t]; norm_num
  · have hb : (a == b) = false := beq_eq_false_iff_ne.mpr h
    have e : IntOp.cmpi .eq a b = 0#1 := by simp [IntOp.cmpi, hb]
    have t : ((0#1 : BitVec 1).setWidth 32).toInt = 0 := by decide
    rw [if_neg h, e, t]; norm_num

/-- The row block with self loops: entry (k, c) is the larger of the adjacency's entry and the indicator that
    row k of this block is row c of the whole matrix. -/
theorem pay1_apply (i : grid0.Coords) (x1 : Vec Ideal S512x4096 .f32) (k : Fin 512) (c : Fin 4096) :
    k0_pay1 i x1 (ix2 k c) = max (x1 (ix2 k c)) (if rowOf i k = c then (1 : EReal) else 0) := by
  unfold k0_pay1
  simp only []
  show max (x1 (ix2 k c)) (FloatOps.sitofp .f32 ((IntOp.cmpi .eq
      (IntOp.addi (iota .tc S512x4096 32 [0] _ (ix2 k c)) _) (iota .tc S512x4096 32 [1] _ (ix2 k c))).setWidth 32) : Ideal .f32) = _
  rw [ind_eq, iota_single_apply, iota_single_apply, rowBase_eq]
  refine congrArg (max _) (if_congr ?_ rfl rfl)
  have hm : (i 0).val % 8 < 8 := Nat.mod_lt _ (by decide)
  have hk := k.isLt
  have hc := c.isLt
  show IntOp.addi (BitVec.ofNat 32 k.val) (BitVec.ofNat 32 (512 * ((i 0).val % 8))) = BitVec.ofNat 32 c.val ↔ rowOf i k = c
  rw [word_eq_iff _ _ _ (by omega) (by omega), Fin.ext_iff]
  rfl

/-- The zeroed degree column. -/
theorem pay2_apply (y : S4096x1.Idx) : k0_pay2 (F := Ideal) y = 0 := by
  unfold k0_pay2
  rw [shapeCast_self]
  exact Ideal.ofBits_zero_f32

/-- The degree column after a row block: what it held plus the block's column sums. -/
theorem pay3_apply (i : grid0.Coords) (x1 : Vec Ideal S512x4096 .f32) (d : Vec Ideal S4096x1 .f32) (c : Fin 4096) :
    k0_pay3 i x1 d (ix2 c 0) = d (ix2 c 0) + ∑ k : Fin 512, k0_pay1 i x1 (ix2 k c) := by
  unfold k0_pay3
  simp only [shapeCast_self]
  unfold matmul
  rw [addf_apply, TransDot.matmul_zero_apply ⟨rfl, rfl, rfl, rfl, rfl, rfl⟩ none _ _ c 0]
  refine congrArg _ (Finset.sum_congr rfl fun k _ => ?_)
  rw [broadcast_apply]
  show _ * Ideal.ofBits .f32 0x3F800000#32 = _
  rw [Ideal.ofBits_one_f32, mul_one]

/-- The zeroed output block. -/
theorem pay4_apply (y : S4096x3.Idx) : k0_pay4 (F := Ideal) y = 0 := by
  unfold k0_pay4
  exact Ideal.ofBits_zero_f32

/-- The output block after a row block: what it held plus the transposed block times the block's 512 message rows. -/
theorem pay5_apply (i : grid0.Coords) (x1 : Vec Ideal S512x4096 .f32) (vb : Vec Ideal S512x3 .f32) (o : Vec Ideal S4096x3 .f32)
    (c : Fin 4096) (j : Fin 3) :
    k0_pay5 i x1 vb o (ix2 c j) = o (ix2 c j) + ∑ k : Fin 512, k0_pay1 i x1 (ix2 k c) * vb (ix2 k j) := by
  unfold k0_pay5
  simp only [shapeCast_self]
  unfold matmul
  rw [addf_apply, TransDot.matmul_zero_apply ⟨rfl, rfl, rfl, rfl, rfl, rfl⟩ none _ _ c j]

/-- The final scaling and bias. -/
theorem pay6_apply (d : Vec Ideal S4096x1 .f32) (o : Vec Ideal S4096x3 .f32) (x7 : Vec Ideal S1x3 .f32) (c : Fin 4096) (j : Fin 3) :
    k0_pay6 d o x7 (ix2 c j) = d (ix2 c 0) * o (ix2 c j) + x7 (ix2 0 j) := by
  unfold k0_pay6
  simp only [shapeCast_self]
  rw [addf_apply, mulf_apply,
    broadcastTo_apply d _ (ix2 c j) (ix2 c 0) (Fin.forall_fin_two.mpr ⟨by simp, by simp⟩),
    broadcastTo_apply x7 _ (ix2 c j) (ix2 0 j) (Fin.forall_fin_two.mpr ⟨by simp, by simp⟩)]

/-- The normalisation column from the degree column. -/
theorem pay8_apply (d : Vec Ideal S4096x1 .f32) (c : Fin 4096) :
    k0_pay8 d (ix2 c 0) = Cert.Spec.dinvOf (d (ix2 c 0)) := by
  unfold k0_pay8
  rw [shapeCast_self]
  rfl

/-- The message block from the degree column and the perceptron's inputs (the biases arrive as 1 x n rows). -/
theorem pay9_apply (d : Vec Ideal S4096x1 .f32) (x0 : Vec Ideal S4096x3 .f32) (x2 : Vec Ideal S3x16 .f32) (x3 : Vec Ideal S1x16 .f32)
    (x4 : Vec Ideal S16x3 .f32) (x5 : Vec Ideal S1x3 .f32) (x6 : Vec Ideal S3x3 .f32)
    (b1 : Cert.Spec.Vc 16) (hb1 : ∀ k : Fin 16, x3 (ix2 0 k) = b1 (ix1 k))
    (b3 : Cert.Spec.Vc 3) (hb3 : ∀ k : Fin 3, x5 (ix2 0 k) = b3 (ix1 k)) (r : Fin 4096) (j : Fin 3) :
    k0_pay9 d x0 x2 x3 x4 x5 x6 (ix2 r j) = Cert.Spec.dinvOf (d (ix2 r 0)) * Cert.Spec.hw x0 x2 b1 x4 b3 x6 r j := by
  unfold k0_pay9
  simp only [shapeCast_self]
  unfold matmul
  rw [mulf_apply,
    broadcastTo_apply (k0_pay7 d) _ (ix2 r j) (ix2 r 0) (Fin.forall_fin_two.mpr ⟨by simp, by simp⟩),
    PlainDot.matmul_zero_apply ⟨rfl, rfl, rfl, rfl, rfl, rfl⟩ none _ _ r j]
  refine congrArg₂ (· * ·) rfl (Finset.sum_congr rfl fun k _ => congrArg (· * x6 (ix2 k j)) ?_)
  -- the second layer at (r, k)
  rw [maximumf_apply, addf_apply,
    broadcastTo_apply x5 _ (ix2 r k) (ix2 0 k) (Fin.forall_fin_two.mpr ⟨by simp, by simp⟩), hb3 k,
    PlainDot.matmul_zero_apply ⟨rfl, rfl, rfl, rfl, rfl, rfl⟩ none _ _ r k]
  unfold Cert.Spec.h2 Cert.Spec.relu
  refine congrArg₂ max (congrArg (· + b3 (ix1 k)) (Finset.sum_congr rfl fun m _ => congrArg (· * x4 (ix2 m k)) ?_)) rfl
  -- the first layer at (r, m)
  rw [maximumf_apply, addf_apply,
    broadcastTo_apply x3 _ (ix2 r m) (ix2 0 m) (Fin.forall_fin_two.mpr ⟨by simp, by simp⟩), hb1 m,
    PlainDot.matmul_zero_apply ⟨rfl, rfl, rfl, rfl, rfl, rfl⟩ none _ _ r m]
  rfl

/-- The block's message rows are rows of the message block. -/
theorem vrows_apply (i : grid0.Coords) (h : cond0_3 i) (s1 : Vec Ideal S4096x3 .f32) (k : Fin 512) (j : Fin 3) :
    vrows i h s1 (ix2 k j) = s1 (ix2 (rowOf i k) j) := by
  unfold vrows
  refine congrArg s1 (Shape.idx_ext₂ ?_ ?_)
  · show (k0_off1 i) 0 + 1 * k.val = 512 * ((i 0).val % 8) + k.val
    rw [Gen.k0_off1_eq]; simp
  · show (k0_off1 i) 1 + 1 * j.val = j.val
    rw [Gen.k0_off1_eq]; simp

end Cert.KernelIdeal.Hand

end
-- ==== Proof.Fold.lean ====
/-
  Sixteen grid points compose to the specification.

  Over the first eight points the degree column gathers the column sums of max(adj, I) block by block; point 8 turns
  it into the normalisation s, forms the message block s * (h Wg) and starts the output block from zero; points 8
  to 15 gather the products of the transposed row blocks with the matching message rows; point 15 scales by s and
  adds the bias.  A sum over the 4096 rows is the sum over the 8 blocks of the sums over each block's 512 rows.
-/
import proofs.«131665_g88562225643609_cont_sun_c4_799_2_alg».proof.Proof.PayIdx
import Mathlib.Algebra.BigOperators.Fin
import Mathlib.Logic.Equiv.Fin.Basic

noncomputable section

namespace Cert.KernelIdeal.Hand

open Idealize.ShloMosaic Idealize.ShloMosaic.ValueIdx Idealize.SL.Sem
open Cert.KernelIdeal Cert.KernelIdeal.Gen

/-! ## The guards at the sixteen points -/

private theorem g0 : ∀ t : Fin 16, cond0_0 (pt t.val) ↔ t.val = 0 := by decide +kernel
private theorem g1 : ∀ t : Fin 16, cond0_1 (pt t.val) ↔ t.val < 8 := by decide +kernel
private theorem g2 : ∀ t : Fin 16, cond0_2 (pt t.val) ↔ t.val = 8 := by decide +kernel
private theorem g3 : ∀ t : Fin 16, cond0_3 (pt t.val) ↔ 8 ≤ t.val := by decide +kernel
private theorem g4 : ∀ t : Fin 16, cond0_4 (pt t.val) ↔ t.val = 15 := by decide +kernel

private theorem c0 (n : ℕ) (hn : n < 16) : cond0_0 (pt n) ↔ n = 0 := g0 ⟨n, hn⟩
private theorem c1 (n : ℕ) (hn : n < 16) : cond0_1 (pt n) ↔ n < 8 := g1 ⟨n, hn⟩
private theorem c2 (n : ℕ) (hn : n < 16) : cond0_2 (pt n) ↔ n = 8 := g2 ⟨n, hn⟩
private theorem c3 (n : ℕ) (hn : n < 16) : cond0_3 (pt n) ↔ 8 ≤ n := g3 ⟨n, hn⟩
private theorem c4 (n : ℕ) (hn : n < 16) : cond0_4 (pt n) ↔ n = 15 := g4 ⟨n, hn⟩

/-- The row a block's row k is: block (n mod 8), row k. -/
private theorem rowOf_pt_val (n : ℕ) (k : Fin 512) : (rowOf (pt n) k).val = 512 * (n % 8) + k.val := by
  show 512 * ((n % 16) % 8) + k.val = 512 * (n % 8) + k.val
  omega

private theorem rowOf_pt_add8 (n : ℕ) (k : Fin 512) : rowOf (pt (n + 8)) k = rowOf (pt n) k := by
  apply Fin.ext; rw [rowOf_pt_val, rowOf_pt_val]; omega

/-- A sum over the 4096 rows is the sum over the 8 blocks of the sums over each block's 512 rows. -/
private theorem sum_blocks {M : Type} [AddCommMonoid M] (f : Fin 4096 → M) :
    ∑ r : Fin 4096, f r = ∑ b ∈ Finset.range 8, ∑ k : Fin 512, f (rowOf (pt b) k) := by
  rw [← Fin.sum_univ_eq_sum_range (fun b => ∑ k : Fin 512, f (rowOf (pt b) k)) 8]
  rw [← (finProdFinEquiv : Fin 8 × Fin 512 ≃ Fin 4096).sum_comp f, Fintype.sum_prod_type]
  refine Finset.sum_congr rfl fun b _ => Finset.sum_congr rfl fun k _ => ?_
  congr 1
  apply Fin.ext
  rw [rowOf_pt_val]
  have := b.isLt
  simp only [finProdFinEquiv_apply_val]
  omega

/-! ## One point, section by section -/

private theorem step_s0_first (i : grid0.Coords) (x0 : Vec Ideal S4096x3 .f32) (x1 : Vec Ideal S512x4096 .f32)
    (x2 : Vec Ideal S3x16 .f32) (x3 : Vec Ideal S1x16 .f32) (x4 : Vec Ideal S16x3 .f32) (x5 : Vec Ideal S1x3 .f32)
    (x6 : Vec Ideal S3x3 .f32) (x7 : Vec Ideal S1x3 .f32) (s : St Ideal)
    (h0 : cond0_0 i) (h1 : cond0_1 i) (h2 : ¬ cond0_2 i) :
    (step i x0 x1 x2 x3 x4 x5 x6 x7 s).s0 = k0_pay3 i x1 (k0_pay2 (F := Ideal)) := by
  simp only [step, if_pos h0, if_pos h1, if_neg h2]

private theorem step_s0_acc (i : grid0.Coords) (x0 : Vec Ideal S4096x3 .f32) (x1 : Vec Ideal S512x4096 .f32)
    (x2 : Vec Ideal S3x16 .f32) (x3 : Vec Ideal S1x16 .f32) (x4 : Vec Ideal S16x3 .f32) (x5 : Vec Ideal S1x3 .f32)
    (x6 : Vec Ideal S3x3 .f32) (x7 : Vec Ideal S1x3 .f32) (s : St Ideal)
    (h0 : ¬ cond0_0 i) (h1 : cond0_1 i) (h2 : ¬ cond0_2 i) :
    (step i x0 x1 x2 x3 x4 x5 x6 x7 s).s0 = k0_pay3 i x1 s.s0 := by
  simp only [step, if_neg h0, if_pos h1, if_neg h2]

private theorem step_at8 (i : grid0.Coords) (x0 : Vec Ideal S4096x3 .f32) (x1 : Vec Ideal S512x4096 .f32)
    (x2 : Vec Ideal S3x16 .f32) (x3 : Vec Ideal S1x16 .f32) (x4 : Vec Ideal S16x3 .f32) (x5 : Vec Ideal S1x3 .f32)
    (x6 : Vec Ideal S3x3 .f32) (x7 : Vec Ideal S1x3 .f32) (s : St Ideal)
    (h0 : ¬ cond0_0 i) (h1 : ¬ cond0_1 i) (h2 : cond0_2 i) (h3 : cond0_3 i) (h4 : ¬ cond0_4 i) :
    step i x0 x1 x2 x3 x4 x5 x6 x7 s
      = ⟨k0_pay5 i x1 (vrows i h3 (k0_pay9 s.s0 x0 x2 x3 x4 x5 x6)) (k0_pay4 (F := Ideal)), k0_pay8 s.s0,
          k0_pay9 s.s0 x0 x2 x3 x4 x5 x6⟩ := by
  simp only [step, if_neg h0, if_neg h1, if_pos h2, dif_pos h3, if_neg h4]

private theorem step_mid (i : grid0.Coords) (x0 : Vec Ideal S4096x3 .f32) (x1 : Vec Ideal S512x4096 .f32)
    (x2 : Vec Ideal S3x16 .f32) (x3 : Vec Ideal S1x16 .f32) (x4 : Vec Ideal S16x3 .f32) (x5 : Vec Ideal S1x3 .f32)
    (x6 : Vec Ideal S3x3 .f32) (x7 : Vec Ideal S1x3 .f32) (s : St Ideal)
    (h0 : ¬ cond0_0 i) (h1 : ¬ cond0_1 i) (h2 : ¬ cond0_2 i) (h3 : cond0_3 i) (h4 : ¬ cond0_4 i) :
    step i x0 x1 x2 x3 x4 x5 x6 x7 s = ⟨k0_pay5 i x1 (vrows i h3 s.s1) s.out, s.s0, s.s1⟩ := by
  simp only [step, if_neg h0, if_neg h1, if_neg h2, dif_pos h3, if_neg h4]

private theorem step_last (i : grid0.Coords) (x0 : Vec Ideal S4096x3 .f32) (x1 : Vec Ideal S512x4096 .f32)
    (x2 : Vec Ideal S3x16 .f32) (x3 : Vec Ideal S1x16 .f32) (x4 : Vec Ideal S16x3 .f32) (x5 : Vec Ideal S1x3 .f32)
    (x6 : Vec Ideal S3x3 .f32) (x7 : Vec Ideal S1x3 .f32) (s : St Ideal)
    (h0 : ¬ cond0_0 i) (h1 : ¬ cond0_1 i) (h2 : ¬ cond0_2 i) (h3 : cond0_3 i) (h4 : cond0_4 i) :
    (step i x0 x1 x2 x3 x4 x5 x6 x7 s).out = k0_pay6 s.s0 (k0_pay5 i x1 (vrows i h3 s.s1) s.out) x7 := by
  simp only [step, if_neg h0, if_neg h1, if_neg h2, dif_pos h3, if_pos h4]

/-! ## The streamed block with self loops is a row block of A -/

private theorem pay1_A (adj : Cert.Spec.Mat 4096 4096) (blk : ℕ → Vec Ideal S512x4096 .f32)
    (hblk : ∀ n, n < 16 → ∀ (k : Fin 512) (c : Fin 4096), blk n (ix2 k c) = adj (ix2 (rowOf (pt n) k) c))
    (n : ℕ) (hn : n < 16) (k : Fin 512) (c : Fin 4096) :
    k0_pay1 (pt n) (blk n) (ix2 k c) = Cert.Spec.aHat adj (rowOf (pt n) k) c := by
  rw [pay1_apply, hblk n hn]; rfl

private theorem deg_blocks (adj : Cert.Spec.Mat 4096 4096) (c : Fin 4096) :
    ∑ b ∈ Finset.range 8, ∑ k : Fin 512, Cert.Spec.aHat adj (rowOf (pt b) k) c = Cert.Spec.deg adj c :=
  (sum_blocks (fun r => Cert.Spec.aHat adj r c)).symm

/-! ## Points 0 to 7: the degree column gathers the column sums block by block -/

private theorem inv_deg (x : Cert.Spec.Mat 4096 3) (adj : Cert.Spec.Mat 4096 4096) (W1 : Cert.Spec.Mat 3 16)
    (W3 : Cert.Spec.Mat 16 3) (Wg : Cert.Spec.Mat 3 3)
    (x3 : Vec Ideal S1x16 .f32) (x5 : Vec Ideal S1x3 .f32) (x7 : Vec Ideal S1x3 .f32)
    (blk : ℕ → Vec Ideal S512x4096 .f32)
    (hblk : ∀ n, n < 16 → ∀ (k : Fin 512) (c : Fin 4096), blk n (ix2 k c) = adj (ix2 (rowOf (pt n) k) c))
    (d : St Ideal) (n : ℕ) (hn : n < 8) (c : Fin 4096) :
    (foldSt (F := Ideal) x W1 x3 W3 x5 Wg x7 blk d n).s0 (ix2 c 0)
      = ∑ b ∈ Finset.range (n + 1), ∑ k : Fin 512, Cert.Spec.aHat adj (rowOf (pt b) k) c := by
  induction n with
  | zero =>
    show (step (pt 0) x (blk 0) W1 x3 W3 x5 Wg x7 d).s0 (ix2 c 0) = _
    rw [step_s0_first _ _ _ _ _ _ _ _ _ _ ((c0 0 (by omega)).mpr rfl) ((c1 0 (by omega)).mpr (by omega))
      (fun h => by have := (c2 0 (by omega)).mp h; omega)]
    rw [pay3_apply, pay2_apply, zero_add, Finset.sum_range_one]
    exact Finset.sum_congr rfl fun k _ => pay1_A adj blk hblk 0 (by omega) k c
  | succ m ih =>
    show (step (pt (m + 1)) x (blk (m + 1)) W1 x3 W3 x5 Wg x7
      (foldSt (F := Ideal) x W1 x3 W3 x5 Wg x7 blk d m)).s0 (ix2 c 0) = _
    rw [step_s0_acc _ _ _ _ _ _ _ _ _ _ (fun h => by have := (c0 (m + 1) (by omega)).mp h; omega)
      ((c1 (m + 1) (by omega)).mpr (by omega)) (fun h => by have := (c2 (m + 1) (by omega)).mp h; omega)]
    rw [pay3_apply, ih (by omega), Finset.sum_range_succ _ (m + 1)]
    congr 1
    exact Finset.sum_congr rfl fun k _ => pay1_A adj blk hblk (m + 1) (by omega) k c

/-! ## Points 8 to 14: the normalisation, the messages, and the output block gathering the products block by block -/

private theorem inv_out (x : Cert.Spec.Mat 4096 3) (adj : Cert.Spec.Mat 4096 4096) (W1 : Cert.Spec.Mat 3 16) (b1 : Cert.Spec.Vc 16)
    (W3 : Cert.Spec.Mat 16 3) (b3 : Cert.Spec.Vc 3) (Wg : Cert.Spec.Mat 3 3)
    (x3 : Vec Ideal S1x16 .f32) (hx3 : ∀ k : Fin 16, x3 (ix2 0 k) = b1 (ix1 k))
    (x5 : Vec Ideal S1x3 .f32) (hx5 : ∀ k : Fin 3, x5 (ix2 0 k) = b3 (ix1 k))
    (x7 : Vec Ideal S1x3 .f32)
    (blk : ℕ → Vec Ideal S512x4096 .f32)
    (hblk : ∀ n, n < 16 → ∀ (k : Fin 512) (c : Fin 4096), blk n (ix2 k c) = adj (ix2 (rowOf (pt n) k) c))
    (d : St Ideal) (m : ℕ) (hm : m ≤ 6) :
    (∀ c : Fin 4096, (foldSt (F := Ideal) x W1 x3 W3 x5 Wg x7 blk d (m + 8)).s0 (ix2 c 0)
        = Cert.Spec.dinvOf (Cert.Spec.deg adj c)) ∧
    (∀ (r : Fin 4096) (j : Fin 3), (foldSt (F := Ideal) x W1 x3 W3 x5 Wg x7 blk d (m + 8)).s1 (ix2 r j)
        = Cert.Spec.msg x adj W1 b1 W3 b3 Wg r j) ∧
    (∀ (c : Fin 4096) (j : Fin 3), (foldSt (F := Ideal) x W1 x3 W3 x5 Wg x7 blk d (m + 8)).out (ix2 c j)
        = ∑ b ∈ Finset.range (m + 1), ∑ k : Fin 512,
            Cert.Spec.aHat adj (rowOf (pt b) k) c * Cert.Spec.msg x adj W1 b1 W3 b3 Wg (rowOf (pt b) k) j) := by
  induction m with
  | zero =>
    have hs : foldSt (F := Ideal) x W1 x3 W3 x5 Wg x7 blk d (0 + 8)
        = step (pt 8) x (blk 8) W1 x3 W3 x5 Wg x7 (foldSt (F := Ideal) x W1 x3 W3 x5 Wg x7 blk d 7) := rfl
    have h3 : cond0_3 (pt 8) := (c3 8 (by omega)).mpr (by omega)
    rw [hs, step_at8 _ _ _ _ _ _ _ _ _ _ (fun h => by have := (c0 8 (by omega)).mp h; omega)
      (fun h => by have := (c1 8 (by omega)).mp h; omega) ((c2 8 (by omega)).mpr rfl) h3
      (fun h => by have := (c4 8 (by omega)).mp h; omega)]
    have hd : ∀ c : Fin 4096, (foldSt (F := Ideal) x W1 x3 W3 x5 Wg x7 blk d 7).s0 (ix2 c 0) = Cert.Spec.deg adj c :=
      fun c => by rw [inv_deg x adj W1 W3 Wg x3 x5 x7 blk hblk d 7 (by omega) c, deg_blocks]
    have hmsg : ∀ (r : Fin 4096) (j : Fin 3),
        k0_pay9 (foldSt (F := Ideal) x W1 x3 W3 x5 Wg x7 blk d 7).s0 x W1 x3 W3 x5 Wg (ix2 r j)
          = Cert.Spec.msg x adj W1 b1 W3 b3 Wg r j := fun r j => by
      rw [pay9_apply _ _ _ _ _ _ _ b1 hx3 b3 hx5, hd]; rfl
    refine ⟨fun c => ?_, hmsg, fun c j => ?_⟩
    · show k0_pay8 _ (ix2 c 0) = _
      rw [pay8_apply, hd]
    · show k0_pay5 _ _ _ _ (ix2 c j) = _
      rw [pay5_apply, pay4_apply, zero_add, Finset.sum_range_one]
      refine Finset.sum_congr rfl fun k _ => ?_
      rw [pay1_A adj blk hblk 8 (by omega) k c, vrows_apply, hmsg, rowOf_pt_add8 0 k]
  | succ m ih =>
    obtain ⟨ih0, ih1, ih2⟩ := ih (by omega)
    have hs : foldSt (F := Ideal) x W1 x3 W3 x5 Wg x7 blk d (m + 1 + 8)
        = step (pt (m + 8 + 1)) x (blk (m + 8 + 1)) W1 x3 W3 x5 Wg x7
            (foldSt (F := Ideal) x W1 x3 W3 x5 Wg x7 blk d (m + 8)) := rfl
    have h3 : cond0_3 (pt (m + 8 + 1)) := (c3 (m + 8 + 1) (by omega)).mpr (by omega)
    rw [hs, step_mid _ _ _ _ _ _ _ _ _ _ (fun h => by have := (c0 (m + 8 + 1) (by omega)).mp h; omega)
      (fun h => by have := (c1 (m + 8 + 1) (by omega)).mp h; omega)
      (fun h => by have := (c2 (m + 8 + 1) (by omega)).mp h; omega) h3
      (fun h => by have := (c4 (m + 8 + 1) (by omega)).mp h; omega)]
    refine ⟨ih0, ih1, fun c j => ?_⟩
    show k0_pay5 _ _ _ _ (ix2 c j) = _
    rw [pay5_apply, ih2, Finset.sum_range_succ _ (m + 1)]
    congr 1
    refine Finset.sum_congr rfl fun k _ => ?_
    rw [pay1_A adj blk hblk (m + 8 + 1) (by omega) k c, vrows_apply, ih1,
      show m + 8 + 1 = (m + 1) + 8 from by omega, rowOf_pt_add8 (m + 1) k]

/-- After the last point the output block is the specification of the arguments, whatever the three buffers held
    before the first point. -/
theorem fold_out_eq (x : Cert.Spec.Mat 4096 3) (adj : Cert.Spec.Mat 4096 4096) (W1 : Cert.Spec.Mat 3 16) (b1 : Cert.Spec.Vc 16)
    (W3 : Cert.Spec.Mat 16 3) (b3 : Cert.Spec.Vc 3) (Wg : Cert.Spec.Mat 3 3) (bg : Cert.Spec.Vc 3)
    (x3 : Vec Ideal S1x16 .f32) (hx3 : ∀ k : Fin 16, x3 (ix2 0 k) = b1 (ix1 k))
    (x5 : Vec Ideal S1x3 .f32) (hx5 : ∀ k : Fin 3, x5 (ix2 0 k) = b3 (ix1 k))
    (x7 : Vec Ideal S1x3 .f32) (hx7 : ∀ k : Fin 3, x7 (ix2 0 k) = bg (ix1 k))
    (blk : ℕ → Vec Ideal S512x4096 .f32)
    (hblk : ∀ n, n < 16 → ∀ (k : Fin 512) (c : Fin 4096), blk n (ix2 k c) = adj (ix2 (rowOf (pt n) k) c))
    (d : St Ideal) :
    (foldSt (F := Ideal) x W1 x3 W3 x5 Wg x7 blk d 15).out = Cert.Spec.G x adj W1 b1 W3 b3 Wg bg := by
  have hs : foldSt (F := Ideal) x W1 x3 W3 x5 Wg x7 blk d 15
      = step (pt 15) x (blk 15) W1 x3 W3 x5 Wg x7 (foldSt (F := Ideal) x W1 x3 W3 x5 Wg x7 blk d (6 + 8)) := rfl
  obtain ⟨i0, i1, i2⟩ := inv_out x adj W1 b1 W3 b3 Wg x3 hx3 x5 hx5 x7 blk hblk d 6 (by omega)
  have h3 : cond0_3 (pt 15) := (c3 15 (by omega)).mpr (by omega)
  rw [hs, step_last _ _ _ _ _ _ _ _ _ _ (fun h => by have := (c0 15 (by omega)).mp h; omega)
    (fun h => by have := (c1 15 (by omega)).mp h; omega)
    (fun h => by have := (c2 15 (by omega)).mp h; omega) h3 ((c4 15 (by omega)).mpr rfl)]
  funext y
  obtain ⟨c, j, rfl⟩ : ∃ (c : Fin 4096) (j : Fin 3), y = ix2 c j := ⟨y 0, y 1, eq_ix2 y⟩
  show _ = Cert.Spec.dinvOf (Cert.Spec.deg adj c)
      * (∑ r : Fin 4096, Cert.Spec.aHat adj r c * Cert.Spec.msg x adj W1 b1 W3 b3 Wg r j) + bg (ix1 j)
  rw [pay6_apply, pay5_apply, i0, i2, hx7,
    sum_blocks (fun r => Cert.Spec.aHat adj r c * Cert.Spec.msg x adj W1 b1 W3 b3 Wg r j),
    Finset.sum_range_succ _ 7]
  congr 3
  refine Finset.sum_congr rfl fun k _ => ?_
  rw [pay1_A adj blk hblk 15 (by omega) k c, vrows_apply, i1, rowOf_pt_add8 7 k]

end Cert.KernelIdeal.Hand

end
-- ==== Proof.Bridge.lean ====
/-
  The output array after the run is the specification of the argument arrays.

  The output window's one block is the whole array and is written back once, after the last grid point, so the
  array ends at what point 15 left in the staging buffer: the output component of the state after sixteen steps.
  The steps' inputs are blocks of the arrays as the region finds them: the four weight arrays and x whole, the
  three biases as 1 x n rows of the argument vectors (the host reshapes them), the adjacency in row blocks of 512,
  block (t mod 8) at point t.  So the state is the pure fold over the arrays, and the fold is the specification.
-/
import proofs.«131665_g88562225643609_cont_sun_c4_799_2_alg».proof.Proof.Data
import proofs.«131665_g88562225643609_cont_sun_c4_799_2_alg».proof.Proof.Fold

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The printed index maps over the grid -/

private theorem idx_facts : ∀ t : Fin cfg0.N,
    win0_0.index t (0 : Fin 2) = 0 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

private theorem coords_eq_pt : ∀ t : Fin cfg0.N, grid0.coords t = pt t.val :=
  (by decide +kernel : ∀ t : Fin grid0.N, grid0.coords t = pt t.val)

/-! ## The blocks the points find -/

private theorem iblk0_eq (c : Dev nD) (t : Fin cfg0.N) :
    (iblk m c 0 t : Vec Ideal S4096x3 .f32) = m ((c.tc : Thread nD τ).loc main_arg0) := by
  obtain ⟨e0, e1, -⟩ := idx_facts t
  funext y
  show V m c main_arg0 (((cfg0.win 0).blk t).view.emb y) = _
  rw [V_main_arg0]
  congr 1
  funext a; apply Fin.ext
  match a with
  | ⟨0, _⟩ => show win0_0.index t (0 : Fin 2) * 4096 + 1 * (y 0).val = (y 0).val; omega
  | ⟨1, _⟩ => show win0_0.index t (1 : Fin 2) * 3 + 1 * (y 1).val = (y 1).val; omega

private theorem iblk2_eq (c : Dev nD) (t : Fin cfg0.N) :
    (iblk m c 2 t : Vec Ideal S3x16 .f32) = m ((c.tc : Thread nD τ).loc main_arg2) := by
  obtain ⟨-, -, -, -, e0, e1, -⟩ := idx_facts t
  funext y
  show V m c main_arg2 (((cfg0.win 2).blk t).view.emb y) = _
  rw [V_main_arg2]
  congr 1
  funext a; apply Fin.ext
  match a with
  | ⟨0, _⟩ => show win0_2.index t (0 : Fin 2) * 3 + 1 * (y 0).val = (y 0).val; omega
  | ⟨1, _⟩ => show win0_2.index t (1 : Fin 2) * 16 + 1 * (y 1).val = (y 1).val; omega

private theorem iblk4_eq (c : Dev nD) (t : Fin cfg0.N) :
    (iblk m c 4 t : Vec Ideal S16x3 .f32) = m ((c.tc : Thread nD τ).loc main_arg4) := by
  obtain ⟨-, -, -, -, -, -, -, -, e0, e1, -⟩ := idx_facts t
  funext y
  show V m c main_arg4 (((cfg0.win 4).blk t).view.emb y) = _
  rw [V_main_arg4]
  congr 1
  funext a; apply Fin.ext
  match a with
  | ⟨0, _⟩ => show win0_4.index t (0 : Fin 2) * 16 + 1 * (y 0).val = (y 0).val; omega
  | ⟨1, _⟩ => show win0_4.index t (1 : Fin 2) * 3 + 1 * (y 1).val = (y 1).val; omega

private theorem iblk6_eq (c : Dev nD) (t : Fin cfg0.N) :
    (iblk m c 6 t : Vec Ideal S3x3 .f32) = m ((c.tc : Thread nD τ).loc main_arg6) := by
  obtain ⟨-, -, -, -, -, -, -, -, -, -, -, -, e0, e1, -⟩ := idx_facts t
  funext y
  show V m c main_arg6 (((cfg0.win 6).blk t).view.emb y) = _
  rw [V_main_arg6]
  congr 1
  funext a; apply Fin.ext
  match a with
  | ⟨0, _⟩ => show win0_6.index t (0 : Fin 2) * 3 + 1 * (y 0).val = (y 0).val; omega
  | ⟨1, _⟩ => show win0_6.index t (1 : Fin 2) * 3 + 1 * (y 1).val = (y 1).val; omega

/-- The adjacency's block at point t is its rows 512 (t mod 8) … 512 (t mod 8) + 511. -/
private theorem iblk1_apply (c : Dev nD) (t : Fin cfg0.N) (k : Fin 512) (c' : Fin 4096) :
    (iblk m c 1 t : Vec Ideal S512x4096 .f32) (ix2 k c')
      = (m ((c.tc : Thread nD τ).loc main_arg1) : S4096x4096.Idx → EReal) (ix2 (rowOf (pt t.val) k) c') := by
  obtain ⟨-, -, e0, e1, -⟩ := idx_facts t
  show V m c main_arg1 (((cfg0.win 1).blk t).view.emb (ix2 k c')) = _
  rw [V_main_arg1]
  congr 1
  funext a; apply Fin.ext
  match a with
  | ⟨0, _⟩ => show win0_1.index t (0 : Fin 2) * 512 + 1 * k.val = 512 * ((t.val % 16) % 8) + k.val; omega
  | ⟨1, _⟩ => show win0_1.index t (1 : Fin 2) * 4096 + 1 * c'.val = c'.val; omega

/-! ## The three biases: the host reshapes the argument vectors into 1 x n rows -/

private theorem V_v0_eq (c : Dev nD) :
    (V m c main_v0 : S1x16.Idx → EReal)
      = shapeCast S1x16 (m ((c.tc : Thread nD τ).loc main_arg3) : S16.Idx → EReal) shapeCasts_S16_S1x16 := by
  dsimp only [Gen.V, Gen.hostOps0]; after_results; rfl

private theorem V_v1_eq (c : Dev nD) :
    (V m c main_v1 : S1x3.Idx → EReal)
      = shapeCast S1x3 (m ((c.tc : Thread nD τ).loc main_arg5) : S3.Idx → EReal) shapeCasts_S3_S1x3 := by
  dsimp only [Gen.V, Gen.hostOps0]; after_results; rfl

private theorem V_v2_eq (c : Dev nD) :
    (V m c main_v2 : S1x3.Idx → EReal)
      = shapeCast S1x3 (m ((c.tc : Thread nD τ).loc main_arg7) : S3.Idx → EReal) shapeCasts_S3_S1x3 := by
  dsimp only [Gen.V, Gen.hostOps0]; after_results; rfl

private theorem iblk3_apply (c : Dev nD) (t : Fin cfg0.N) (k : Fin 16) :
    (iblk m c 3 t : Vec Ideal S1x16 .f32) (ix2 0 k) = (m ((c.tc : Thread nD τ).loc main_arg3) : S16.Idx → EReal) (ix1 k) := by
  obtain ⟨-, -, -, -, -, -, e0, e1, -⟩ := idx_facts t
  have hemb : ((cfg0.win 3).blk t).view.emb (ix2 0 k) = (ix2 0 k : S1x16.Idx) := by
    funext a; apply Fin.ext
    match a with
    | ⟨0, _⟩ => show win0_3.index t (0 : Fin 2) * 1 + 1 * 0 = 0; omega
    | ⟨1, _⟩ => show win0_3.index t (1 : Fin 2) * 16 + 1 * k.val = k.val; omega
  show V m c main_v0 (((cfg0.win 3).blk t).view.emb (ix2 0 k)) = _
  refine (congrArg (V m c main_v0 : S1x16.Idx → EReal) hemb).trans ?_
  rw [V_v0_eq]
  refine shapeCast_apply _ _ (ix2 0 k) (ix1 k) ?_
  rw [Shape.rowMajor_val_one, Shape.rowMajor_val_two]
  show k.val = 0 * 16 + k.val
  omega

private theorem iblk5_apply (c : Dev nD) (t : Fin cfg0.N) (k : Fin 3) :
    (iblk m c 5 t : Vec Ideal S1x3 .f32) (ix2 0 k) = (m ((c.tc : Thread nD τ).loc main_arg5) : S3.Idx → EReal) (ix1 k) := by
  obtain ⟨-, -, -, -, -, -, -, -, -, -, e0, e1, -⟩ := idx_facts t
  have hemb : ((cfg0.win 5).blk t).view.emb (ix2 0 k) = (ix2 0 k : S1x3.Idx) := by
    funext a; apply Fin.ext
    match a with
    | ⟨0, _⟩ => show win0_5.index t (0 : Fin 2) * 1 + 1 * 0 = 0; omega
    | ⟨1, _⟩ => show win0_5.index t (1 : Fin 2) * 3 + 1 * k.val = k.val; omega
  show V m c main_v1 (((cfg0.win 5).blk t).view.emb (ix2 0 k)) = _
  refine (congrArg (V m c main_v1 : S1x3.Idx → EReal) hemb).trans ?_
  rw [V_v1_eq]
  refine shapeCast_apply _ _ (ix2 0 k) (ix1 k) ?_
  rw [Shape.rowMajor_val_one, Shape.rowMajor_val_two]
  show k.val = 0 * 3 + k.val
  omega

private theorem iblk7_apply (c : Dev nD) (t : Fin cfg0.N) (k : Fin 3) :
    (iblk m c 7 t : Vec Ideal S1x3 .f32) (ix2 0 k) = (m ((c.tc : Thread nD τ).loc main_arg7) : S3.Idx → EReal) (ix1 k) := by
  obtain ⟨-, -, -, -, -, -, -, -, -, -, -, -, -, -, e0, e1, -⟩ := idx_facts t
  have hemb : ((cfg0.win 7).blk t).view.emb (ix2 0 k) = (ix2 0 k : S1x3.Idx) := by
    funext a; apply Fin.ext
    match a with
    | ⟨0, _⟩ => show win0_7.index t (0 : Fin 2) * 1 + 1 * 0 = 0; omega
    | ⟨1, _⟩ => show win0_7.index t (1 : Fin 2) * 3 + 1 * k.val = k.val; omega
  show V m c main_v2 (((cfg0.win 7).blk t).view.emb (ix2 0 k)) = _
  refine (congrArg (V m c main_v2 : S1x3.Idx → EReal) hemb).trans ?_
  rw [V_v2_eq]
  refine shapeCast_apply _ _ (ix2 0 k) (ix1 k) ?_
  rw [Shape.rowMajor_val_one, Shape.rowMajor_val_two]
  show k.val = 0 * 3 + k.val
  omega

/-! ## The steps' inputs as functions of the argument arrays -/

/-- The first bias as a 1 x 16 row. -/
private def row3 (c : Dev nD) : Vec Ideal S1x16 .f32 := fun y => (m ((c.tc : Thread nD τ).loc main_arg3) : S16.Idx → EReal) (ix1 (y 1))
/-- The second bias as a 1 x 3 row. -/
private def row5 (c : Dev nD) : Vec Ideal S1x3 .f32 := fun y => (m ((c.tc : Thread nD τ).loc main_arg5) : S3.Idx → EReal) (ix1 (y 1))
/-- The convolution's bias as a 1 x 3 row. -/
private def row7 (c : Dev nD) : Vec Ideal S1x3 .f32 := fun y => (m ((c.tc : Thread nD τ).loc main_arg7) : S3.Idx → EReal) (ix1 (y 1))
/-- The adjacency's row block streamed at point n. -/
private def adjBlk (c : Dev nD) (n : ℕ) : Vec Ideal S512x4096 .f32 := fun y =>
  (m ((c.tc : Thread nD τ).loc main_arg1) : S4096x4096.Idx → EReal) (ix2 (rowOf (pt n) (y 0)) (y 1))

private theorem iblk1_eq (c : Dev nD) (t : Fin cfg0.N) : (iblk m c 1 t : Vec Ideal S512x4096 .f32) = adjBlk m c t.val := by
  funext y
  obtain ⟨k, c', rfl⟩ : ∃ (k : Fin 512) (c' : Fin 4096), y = ix2 k c' := ⟨y 0, y 1, eq_ix2 y⟩
  exact iblk1_apply m c t k c'

private theorem iblk3_eq (c : Dev nD) (t : Fin cfg0.N) : (iblk m c 3 t : Vec Ideal S1x16 .f32) = row3 m c := by
  funext y
  obtain ⟨a, k, rfl⟩ : ∃ (a : Fin 1) (k : Fin 16), y = ix2 a k := ⟨y 0, y 1, eq_ix2 y⟩
  obtain rfl : a = 0 := Subsingleton.elim _ _
  exact iblk3_apply m c t k

private theorem iblk5_eq (c : Dev nD) (t : Fin cfg0.N) : (iblk m c 5 t : Vec Ideal S1x3 .f32) = row5 m c := by
  funext y
  obtain ⟨a, k, rfl⟩ : ∃ (a : Fin 1) (k : Fin 3), y = ix2 a k := ⟨y 0, y 1, eq_ix2 y⟩
  obtain rfl : a = 0 := Subsingleton.elim _ _
  exact iblk5_apply m c t k

private theorem iblk7_eq (c : Dev nD) (t : Fin cfg0.N) : (iblk m c 7 t : Vec Ideal S1x3 .f32) = row7 m c := by
  funext y
  obtain ⟨a, k, rfl⟩ : ∃ (a : Fin 1) (k : Fin 3), y = ix2 a k := ⟨y 0, y 1, eq_ix2 y⟩
  obtain rfl : a = 0 := Subsingleton.elim _ _
  exact iblk7_apply m c t k

/-! ## The kept buffers after point n are the pure fold over the argument arrays -/

private theorem step_congr {i i' : grid0.Coords} (hi : i = i')
    {x0 x0' : Vec Ideal S4096x3 .f32} (h0 : x0 = x0') {x1 x1' : Vec Ideal S512x4096 .f32} (h1 : x1 = x1')
    {x2 x2' : Vec Ideal S3x16 .f32} (h2 : x2 = x2') {x3 x3' : Vec Ideal S1x16 .f32} (h3 : x3 = x3')
    {x4 x4' : Vec Ideal S16x3 .f32} (h4 : x4 = x4') {x5 x5' : Vec Ideal S1x3 .f32} (h5 : x5 = x5')
    {x6 x6' : Vec Ideal S3x3 .f32} (h6 : x6 = x6') {x7 x7' : Vec Ideal S1x3 .f32} (h7 : x7 = x7')
    {s s' : St Ideal} (hs : s = s') :
    step i x0 x1 x2 x3 x4 x5 x6 x7 s = step i' x0' x1' x2' x3' x4' x5' x6' x7' s' := by
  subst hi h0 h1 h2 h3 h4 h5 h6 h7 hs; rfl

private theorem stAt_eq_fold (c : Dev nD) : ∀ (n : ℕ) (hn : n < cfg0.N),
    stAt (F := Ideal) m c n hn
      = foldSt (F := Ideal) (m ((c.tc : Thread nD τ).loc main_arg0)) (m ((c.tc : Thread nD τ).loc main_arg2)) (row3 m c)
          (m ((c.tc : Thread nD τ).loc main_arg4)) (row5 m c) (m ((c.tc : Thread nD τ).loc main_arg6)) (row7 m c)
          (adjBlk m c) junkSt n
  | 0, hn =>
    step_congr (coords_eq_pt ⟨0, hn⟩) (iblk0_eq m c ⟨0, hn⟩) (iblk1_eq m c ⟨0, hn⟩) (iblk2_eq m c ⟨0, hn⟩)
      (iblk3_eq m c ⟨0, hn⟩) (iblk4_eq m c ⟨0, hn⟩) (iblk5_eq m c ⟨0, hn⟩) (iblk6_eq m c ⟨0, hn⟩) (iblk7_eq m c ⟨0, hn⟩) rfl
  | n + 1, hn =>
    step_congr (coords_eq_pt ⟨n + 1, hn⟩) (iblk0_eq m c ⟨n + 1, hn⟩) (iblk1_eq m c ⟨n + 1, hn⟩) (iblk2_eq m c ⟨n + 1, hn⟩)
      (iblk3_eq m c ⟨n + 1, hn⟩) (iblk4_eq m c ⟨n + 1, hn⟩) (iblk5_eq m c ⟨n + 1, hn⟩) (iblk6_eq m c ⟨n + 1, hn⟩)
      (iblk7_eq m c ⟨n + 1, hn⟩) (stAt_eq_fold c n (Nat.lt_of_succ_lt hn))

/-- After the last point the output block is the specification of the argument arrays. -/
private theorem out_last (c : Dev nD) (h : 15 < cfg0.N) :
    (stAt (F := Ideal) m c 15 h).out
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [stAt_eq_fold m c 15 h]
  exact fold_out_eq _ (m ((c.tc : Thread nD τ).loc main_arg1)) _ (m ((c.tc : Thread nD τ).loc main_arg3)) _
    (m ((c.tc : Thread nD τ).loc main_arg5)) _ (m ((c.tc : Thread nD τ).loc main_arg7))
    (row3 m c) (fun _ => rfl) (row5 m c) (fun _ => rfl) (row7 m c) (fun _ => rfl) (adjBlk m c) (fun _ _ _ _ => rfl) junkSt

/-- The output array after every write-back is the specification of the argument arrays as launched. -/
theorem final_eq (c : Dev nD) :
    (dats (F := Ideal) m 0 c).arrAt 8 cfg0.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hN : cfg0.N = 16 := N_0
  refine (dats (F := Ideal) m 0 c).arrAt_eq_of_cover 8 _ (fun t hf => ?_) (fun i => ?_)
  · have h15 : t.val = 15 := by have := (flush0_8 t).mp hf; have := t.isLt; omega
    obtain ⟨tv, ht⟩ := t
    obtain rfl : tv = 15 := h15
    obtain ⟨-, -, -, -, -, -, -, -, -, -, -, -, -, -, -, -, e0, e1⟩ := idx_facts ⟨15, ht⟩
    show (cfg0.win 8).cut (grid0.coords ⟨15, ht⟩) ((dats (F := Ideal) m 0 c).after 8 ⟨15, ht⟩) = _
    rw [after0_8]
    show (cfg0.win 8).cut (grid0.coords ⟨15, ht⟩) (stAt (F := Ideal) m c 15 ht).out = _
    rw [out_last m c ht]
    funext y
    show _ = Cert.Spec.G _ _ _ _ _ _ _ _ (((cfg0.win 8).blk ⟨15, ht⟩).view.emb y)
    have hemb : ((cfg0.win 8).blk ⟨15, ht⟩).view.emb y = (y : S4096x3.Idx) := by
      funext a; apply Fin.ext
      match a with
      | ⟨0, _⟩ => show win0_8.index ⟨15, ht⟩ (0 : Fin 2) * 4096 + 1 * (y 0).val = (y 0).val; omega
      | ⟨1, _⟩ => show win0_8.index ⟨15, ht⟩ (1 : Fin 2) * 3 + 1 * (y 1).val = (y 1).val; omega
    rw [hemb]
  · have ht : 15 < cfg0.N := by omega
    obtain ⟨-, -, -, -, -, -, -, -, -, -, -, -, -, -, -, -, e0, e1⟩ := idx_facts ⟨15, ht⟩
    refine ⟨⟨15, ht⟩, (flush0_8 ⟨15, ht⟩).mpr rfl, ?_⟩
    show i ∈ ((View.whole main_v3).slice (win0_8.rect ⟨15, ht⟩)).set
    rw [View.set_slice_whole, Rect.mem_set_unit]
    intro a
    have h0 : (i 0 : Nat) < 4096 := (i 0).isLt
    have h1 : (i 1 : Nat) < 3 := (i 1).isLt
    match a with
    | ⟨0, _⟩ =>
      show win0_8.index ⟨15, ht⟩ (0 : Fin 2) * 4096 ≤ (i 0 : Nat) ∧ (i 0 : Nat) < win0_8.index ⟨15, ht⟩ (0 : Fin 2) * 4096 + 4096
      omega
    | ⟨1, _⟩ =>
      show win0_8.index ⟨15, ht⟩ (1 : Fin 2) * 3 ≤ (i 1 : Nat) ∧ (i 1 : Nat) < win0_8.index ⟨15, ht⟩ (1 : Fin 2) * 3 + 3
      omega

end Cert.KernelIdeal.Hand

end
-- ==== Proof.KernelRun.lean ====
/-
  The idealized kernel's run with its result NAMED: every weakly fair execution terminates with the result array at
  the specification of the argument arrays, and the argument arrays unchanged.

  The frame run leaves every array of the pipeline at what the proof data computes: the output at the block the
  last point wrote back (the specification, by the bridge from the sixteen steps), a staged argument at its entry
  contents; the three bias vectors, which no window stages (their reshaped copies are staged), are among the other
  unscoped buffers, which keep their entry contents.
-/
import proofs.«131665_g88562225643609_cont_sun_c4_799_2_alg».proof.Proof.Bridge

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem value_run :
    θ_run defs (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main (F := Ideal) m ρ)

end Cert.KernelIdeal.Hand

end
-- ==== Proof.Ref.lean ====
/-
  The reference's result, read off its run one operation at a time, is the specification `Cert.Spec.G` of its
  eight argument arrays.
-/
import proofs.«131665_g88562225643609_cont_sun_c4_799_2_alg».proof.Proof.Gen.ReferenceIdeal.Run
import proofs.«131665_g88562225643609_cont_sun_c4_799_2_alg».proof.Proof.Gen.ReferenceIdeal.Read
import proofs.«131665_g88562225643609_cont_sun_c4_799_2_alg».proof.Proof.Spec
import proofs.«131665_g88562225643609_cont_sun_c4_799_2_alg».proof.Proof.LibPlainDot

noncomputable section

namespace Cert.ReferenceIdeal.RefValue

open Idealize.ShloMosaic Idealize.ShloMosaic.ValueIdx Idealize.SL.Sem
open Cert.ReferenceIdeal Cert.ReferenceIdeal.Gen

/-- The two iotas compared: the bit is set exactly on the diagonal. -/
private theorem eye_bit (r c : Fin 4096) :
    IntOp.cmpi .eq (IntOp.addi (BitVec.ofNat 32 r.val) 0#32) (BitVec.ofNat 32 c.val) = if r = c then 1#1 else 0#1 := by
  have hadd : IntOp.addi (BitVec.ofNat 32 r.val) 0#32 = BitVec.ofNat 32 r.val := BitVec.add_zero _
  rw [hadd]
  show BitVec.ofBool (BitVec.ofNat 32 r.val == BitVec.ofNat 32 c.val) = _
  by_cases h : r = c
  · rw [if_pos h, h, beq_self_eq_true]; rfl
  · rw [if_neg h]
    have hne : BitVec.ofNat 32 r.val ≠ BitVec.ofNat 32 c.val := by
      intro e
      have e' := congrArg BitVec.toNat e
      simp only [BitVec.toNat_ofNat] at e'
      apply h; apply Fin.ext
      have hr := r.isLt; have hc := c.isLt
      omega
    rw [beq_eq_false_iff_ne.mpr hne]; rfl
/-- The identity matrix, as the reference builds it. -/
private theorem eye_apply (r c : Fin 4096) :
    Read.val_main_v15 (F := Ideal) (ix2 r c) = if r = c then (1 : EReal) else 0 := by
  rw [Read.val_main_v15_apply, Read.val_main_v14_apply, Read.val_main_v13_apply, Read.val_main_v10_apply,
    Read.val_main_v11_apply, Read.val_main_v12_apply, Read.val_main_c_apply]
  show (((IntOp.cmpi .eq (IntOp.addi (BitVec.ofNat 32 r.val) 0#32) (BitVec.ofNat 32 c.val)).toNat : ℝ) : EReal) = _
  rw [eye_bit]
  by_cases h : r = c
  · rw [if_pos h, if_pos h]; simp
  · rw [if_neg h, if_neg h]; simp
/-- The adjacency with self loops. -/
private theorem aHat_apply (x1 : (⟨S4096x4096, .f32⟩ : BufTy).Contents (Elt Ideal)) (r c : Fin 4096) :
    Read.val_main_v16 (F := Ideal) x1 (ix2 r c) = Cert.Spec.aHat x1 r c := by
  rw [Read.val_main_v16_apply, eye_apply]
  rfl

private theorem idx17 (c k : Fin 4096) : Read.idx_main_v17 (ix1 c) k = ix2 k c :=
  funext fun a => Fin.ext (by match a with | ⟨0, _⟩ => rfl | ⟨1, _⟩ => rfl)

/-- The in-degree. -/
private theorem deg_apply (x1 : (⟨S4096x4096, .f32⟩ : BufTy).Contents (Elt Ideal)) (c : Fin 4096) :
    Read.val_main_v17 (F := Ideal) x1 (ix1 c) = Cert.Spec.deg x1 c := by
  rw [Read.val_main_v17_apply, Read.val_main_cst_apply, Ideal.ofBits_def, Ideal.ofBits_zero_f32, zero_add]
  unfold Cert.Spec.deg
  refine Finset.sum_congr rfl fun k _ => ?_
  rw [idx17, aHat_apply]

/-- The normalisation. -/
private theorem dinv_apply (x1 : (⟨S4096x4096, .f32⟩ : BufTy).Contents (Elt Ideal)) (c : Fin 4096) :
    Read.val_main_v21 (F := Ideal) x1 (ix1 c) = Cert.Spec.dinvOf (Cert.Spec.deg x1 c) := by
  rw [Read.val_main_v21_apply, Read.val_main_v19_apply, Read.val_main_v20_apply, Read.val_main_call2_v1_apply,
    Read.val_main_call2_v0_apply, Read.val_main_cst_1_apply, Read.val_main_v18_apply, Read.val_main_cst_0_apply,
    deg_apply, Ideal.hostUnary_rsqrt_def]
  rfl

private theorem lidx0 (r : Fin 4096) (k : Fin 16) (j : Fin 3) : Read.lidx_main_v0 (ix2 r k) j = ix2 r j :=
  funext fun a => Fin.ext (by match a with | ⟨0, _⟩ => rfl | ⟨1, _⟩ => rfl)
private theorem ridx0 (r : Fin 4096) (k : Fin 16) (j : Fin 3) : Read.ridx_main_v0 (ix2 r k) j = ix2 j k :=
  funext fun a => Fin.ext (by match a with | ⟨0, _⟩ => rfl | ⟨1, _⟩ => rfl)
private theorem idx12 (r : Fin 4096) (k : Fin 16) : Read.idx_main_v1 (Read.idx_main_v2 (ix2 r k)) = ix1 k :=
  funext fun a => Fin.ext (by match a with | ⟨0, _⟩ => rfl)

/-- The first layer. -/
private theorem h1_apply (x0 : (⟨S4096x3, .f32⟩ : BufTy).Contents (Elt Ideal)) (x2 : (⟨S3x16, .f32⟩ : BufTy).Contents (Elt Ideal))
    (x3 : (⟨S16, .f32⟩ : BufTy).Contents (Elt Ideal)) (r : Fin 4096) (k : Fin 16) :
    Read.val_main_v4 (F := Ideal) x0 x2 x3 (ix2 r k) = Cert.Spec.h1 x0 x2 x3 r k := by
  rw [Read.val_main_v4_apply, Read.val_main_v3_apply, Read.val_main_v0_apply, Read.val_main_v2_apply, Read.val_main_v1_apply,
    Read.val_main_call0_v0_apply, Read.val_main_call0_cst_apply, idx12]
  simp only [lidx0, ridx0]
  rfl

private theorem lidx5 (r : Fin 4096) (j : Fin 3) (k : Fin 16) : Read.lidx_main_v5 (ix2 r j) k = ix2 r k :=
  funext fun a => Fin.ext (by match a with | ⟨0, _⟩ => rfl | ⟨1, _⟩ => rfl)
private theorem ridx5 (r : Fin 4096) (j : Fin 3) (k : Fin 16) : Read.ridx_main_v5 (ix2 r j) k = ix2 k j :=
  funext fun a => Fin.ext (by match a with | ⟨0, _⟩ => rfl | ⟨1, _⟩ => rfl)
private theorem idx67 (r : Fin 4096) (j : Fin 3) : Read.idx_main_v6 (Read.idx_main_v7 (ix2 r j)) = ix1 j :=
  funext fun a => Fin.ext (by match a with | ⟨0, _⟩ => rfl)

/-- The second layer. -/
private theorem h2_apply (x0 : (⟨S4096x3, .f32⟩ : BufTy).Contents (Elt Ideal)) (x2 : (⟨S3x16, .f32⟩ : BufTy).Contents (Elt Ideal))
    (x3 : (⟨S16, .f32⟩ : BufTy).Contents (Elt Ideal)) (x4 : (⟨S16x3, .f32⟩ : BufTy).Contents (Elt Ideal))
    (x5 : (⟨S3, .f32⟩ : BufTy).Contents (Elt Ideal)) (r : Fin 4096) (j : Fin 3) :
    Read.val_main_v9 (F := Ideal) x0 x2 x3 x4 x5 (ix2 r j) = Cert.Spec.h2 x0 x2 x3 x4 x5 r j := by
  rw [Read.val_main_v9_apply, Read.val_main_v8_apply, Read.val_main_v5_apply, Read.val_main_v7_apply, Read.val_main_v6_apply,
    Read.val_main_call1_v0_apply, Read.val_main_call1_cst_apply, idx67]
  simp only [lidx5, ridx5, h1_apply]
  rfl

private theorem lidx22 (r : Fin 4096) (j : Fin 3) (k : Fin 3) : Read.lidx_main_v22 (ix2 r j) k = ix2 r k :=
  funext fun a => Fin.ext (by match a with | ⟨0, _⟩ => rfl | ⟨1, _⟩ => rfl)
private theorem ridx22 (r : Fin 4096) (j : Fin 3) (k : Fin 3) : Read.ridx_main_v22 (ix2 r j) k = ix2 k j :=
  funext fun a => Fin.ext (by match a with | ⟨0, _⟩ => rfl | ⟨1, _⟩ => rfl)

/-- The features times the convolution's weight. -/
private theorem hw_apply (x0 : (⟨S4096x3, .f32⟩ : BufTy).Contents (Elt Ideal)) (x2 : (⟨S3x16, .f32⟩ : BufTy).Contents (Elt Ideal))
    (x3 : (⟨S16, .f32⟩ : BufTy).Contents (Elt Ideal)) (x4 : (⟨S16x3, .f32⟩ : BufTy).Contents (Elt Ideal))
    (x5 : (⟨S3, .f32⟩ : BufTy).Contents (Elt Ideal)) (x6 : (⟨S3x3, .f32⟩ : BufTy).Contents (Elt Ideal)) (r : Fin 4096) (j : Fin 3) :
    Read.val_main_v22 (F := Ideal) x0 x2 x3 x4 x5 x6 (ix2 r j) = Cert.Spec.hw x0 x2 x3 x4 x5 x6 r j := by
  rw [Read.val_main_v22_apply]
  simp only [lidx22, ridx22, h2_apply]
  rfl

private theorem idx2526 (r : Fin 4096) (j : Fin 3) : Read.idx_main_v25 (Read.idx_main_v26 (ix2 r j)) = ix1 r :=
  funext fun a => Fin.ext (by match a with | ⟨0, _⟩ => rfl)

/-- The message a node sends. -/
private theorem msg_apply (x0 : (⟨S4096x3, .f32⟩ : BufTy).Contents (Elt Ideal)) (x1 : (⟨S4096x4096, .f32⟩ : BufTy).Contents (Elt Ideal))
    (x2 : (⟨S3x16, .f32⟩ : BufTy).Contents (Elt Ideal)) (x3 : (⟨S16, .f32⟩ : BufTy).Contents (Elt Ideal))
    (x4 : (⟨S16x3, .f32⟩ : BufTy).Contents (Elt Ideal)) (x5 : (⟨S3, .f32⟩ : BufTy).Contents (Elt Ideal))
    (x6 : (⟨S3x3, .f32⟩ : BufTy).Contents (Elt Ideal)) (r : Fin 4096) (j : Fin 3) :
    Read.val_main_v27 (F := Ideal) x0 x1 x2 x3 x4 x5 x6 (ix2 r j) = Cert.Spec.msg x0 x1 x2 x3 x4 x5 x6 r j := by
  rw [Read.val_main_v27_apply, Read.val_main_v26_apply, Read.val_main_v25_apply, idx2526, dinv_apply, hw_apply]
  rfl

private theorem lidx28 (c : Fin 4096) (j : Fin 3) (r : Fin 4096) : Read.idx_main_v24 (Read.lidx_main_v28 (ix2 c j) r) = ix2 r c :=
  funext fun a => Fin.ext (by match a with | ⟨0, _⟩ => rfl | ⟨1, _⟩ => rfl)
private theorem ridx28 (c : Fin 4096) (j : Fin 3) (r : Fin 4096) : Read.ridx_main_v28 (ix2 c j) r = ix2 r j :=
  funext fun a => Fin.ext (by match a with | ⟨0, _⟩ => rfl | ⟨1, _⟩ => rfl)

/-- The aggregation over the senders. -/
private theorem agg_apply (x0 : (⟨S4096x3, .f32⟩ : BufTy).Contents (Elt Ideal)) (x1 : (⟨S4096x4096, .f32⟩ : BufTy).Contents (Elt Ideal))
    (x2 : (⟨S3x16, .f32⟩ : BufTy).Contents (Elt Ideal)) (x3 : (⟨S16, .f32⟩ : BufTy).Contents (Elt Ideal))
    (x4 : (⟨S16x3, .f32⟩ : BufTy).Contents (Elt Ideal)) (x5 : (⟨S3, .f32⟩ : BufTy).Contents (Elt Ideal))
    (x6 : (⟨S3x3, .f32⟩ : BufTy).Contents (Elt Ideal)) (c : Fin 4096) (j : Fin 3) :
    Read.val_main_v28 (F := Ideal) x0 x1 x2 x3 x4 x5 x6 (ix2 c j)
      = ∑ r : Fin 4096, Cert.Spec.aHat x1 r c * Cert.Spec.msg x0 x1 x2 x3 x4 x5 x6 r j := by
  rw [Read.val_main_v28_apply]
  refine Finset.sum_congr rfl fun r _ => ?_
  rw [Read.val_main_v24_apply, lidx28, ridx28, aHat_apply, msg_apply]

private theorem idx2329 (c : Fin 4096) (j : Fin 3) : Read.idx_main_v23 (Read.idx_main_v29 (ix2 c j)) = ix1 c :=
  funext fun a => Fin.ext (by match a with | ⟨0, _⟩ => rfl)
private theorem idx3132 (c : Fin 4096) (j : Fin 3) : Read.idx_main_v31 (Read.idx_main_v32 (ix2 c j)) = ix1 j :=
  funext fun a => Fin.ext (by match a with | ⟨0, _⟩ => rfl)

/-- The reference's last stage is the specification. -/
theorem ref_eq (x0 : (⟨S4096x3, .f32⟩ : BufTy).Contents (Elt Ideal)) (x1 : (⟨S4096x4096, .f32⟩ : BufTy).Contents (Elt Ideal))
    (x2 : (⟨S3x16, .f32⟩ : BufTy).Contents (Elt Ideal)) (x3 : (⟨S16, .f32⟩ : BufTy).Contents (Elt Ideal))
    (x4 : (⟨S16x3, .f32⟩ : BufTy).Contents (Elt Ideal)) (x5 : (⟨S3, .f32⟩ : BufTy).Contents (Elt Ideal))
    (x6 : (⟨S3x3, .f32⟩ : BufTy).Contents (Elt Ideal)) (x7 : (⟨S3, .f32⟩ : BufTy).Contents (Elt Ideal)) :
    Cert.ReferenceIdeal.Read.val_main_v33 (F := Ideal) x0 x1 x2 x3 x4 x5 x6 x7 = Cert.Spec.G x0 x1 x2 x3 x4 x5 x6 x7 := by
  funext y
  obtain ⟨c, j, rfl⟩ : ∃ (c : Fin 4096) (j : Fin 3), y = ix2 c j := ⟨y 0, y 1, eq_ix2 y⟩
  rw [Read.val_main_v33_apply, Read.val_main_v30_apply, Read.val_main_v29_apply, Read.val_main_v23_apply, idx2329, dinv_apply,
    agg_apply, Read.val_main_v32_apply, Read.val_main_v31_apply, idx3132]
  rfl

end Cert.ReferenceIdeal.RefValue

end
-- ==== Proof.lean ====
/-
  A two-layer perceptron followed by a graph convolution on a dense 4096 x 4096 adjacency with self loops,
      out = s * (A^T (s * (h Wg))) + bg,   A = max(adj, I),   s = deg^(-1/2) where deg = colsum(A) > 0, else 0,
  as ONE pipelined kernel of 16 grid points against the plain array program.

  The kernel streams the adjacency twice in row blocks of 512.  Points 0 to 7 accumulate the column sums of A in a
  scratch column; point 8 turns it into s, forms the message block s * (h Wg) in a second scratch and zeroes the
  output block; points 8 to 15 accumulate A_block^T times the matching message rows into the output block; point 15
  scales by s and adds the bias.  The reference forms A, its column sums, s, the messages and one 4096-term product.

  On the extended reals both are the function `Cert.Spec.G` of the eight arguments: the kernel's two sums over the
  rows arrive grouped into eight blocks, and a finite sum of extended reals does not depend on its grouping; the
  matrix products into a zero accumulator and the host's products are the same sums; the comparison, the
  reciprocal square root and the choice are the same operations on both sides.  No finiteness is used.

  The frames: the body is run once per case of its five guards on whole staging buffers at named contents, the
  three buffers kept between points (output block, degree column, message block) are named point by point by a
  pure step function, and the region's run is the library's frame run over that proof data — for the word-level
  program and the idealized one from one text.  The reference's frame is its run with the result dropped.
-/
import proofs.«131665_g88562225643609_cont_sun_c4_799_2_alg».proof.Defs
import proofs.«131665_g88562225643609_cont_sun_c4_799_2_alg».proof.Proof.Gen.Kernel
import proofs.«131665_g88562225643609_cont_sun_c4_799_2_alg».proof.Proof.Gen.KernelIdeal
import proofs.«131665_g88562225643609_cont_sun_c4_799_2_alg».proof.Proof.Gen.ReferenceIdeal
import proofs.«131665_g88562225643609_cont_sun_c4_799_2_alg».proof.Proof.Gen.Pre_finite_inputs
import proofs.«131665_g88562225643609_cont_sun_c4_799_2_alg».proof.Proof.Gen.ReferenceIdeal.Run
import proofs.«131665_g88562225643609_cont_sun_c4_799_2_alg».proof.Proof.Gen.ReferenceIdeal.Read
import proofs.«131665_g88562225643609_cont_sun_c4_799_2_alg».proof.Proof.Bits.Data
import proofs.«131665_g88562225643609_cont_sun_c4_799_2_alg».proof.Proof.KernelRun
import proofs.«131665_g88562225643609_cont_sun_c4_799_2_alg».proof.Proof.Ref

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification of arguments that agree. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
